-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S2x128x128 : Shape := ⟨3, ![2, 128, 128]⟩
abbrev S2x128x64 : Shape := ⟨3, ![2, 128, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S2x128x128 : S_.BroadcastsInDim S2x128x128 (![] : Fin 0 → Fin S2x128x128.rank)
  reducesTo_S2x128x128_S_d0_1_2 : S2x128x128.ReducesTo [0, 1, 2] S_
  bcast_S_S2x128x64 : S_.BroadcastsInDim S2x128x64 (![] : Fin 0 → Fin S2x128x64.rank)
  reducesTo_S2x128x64_S_d0_1_2 : S2x128x64.ReducesTo [0, 1, 2] S_

variable [Facts]

def fn_part1 {F : FTy → Type} [FloatOps F] (main_v13 : IVec S_ 1) (main_v16 : IVec S2x128x64 1) : IVec S_ 1 :=
  let main_c_5 : IVec S_ 1 := constantI S_ 1 1#1
  let main_v17 : IVec S_ 1 := (fun x v => Host.reduce IntOp.andi x v reducesTo_S2x128x64_S_d0_1_2 h_S_) main_v16 main_c_5
  let main_v18 : IVec S_ 1 := andi main_v13 main_v17
  main_v18

def fn {F : FTy → Type} [FloatOps F] (main_arg0 : FVec F S10000x128 .f32) (main_arg1 : FVec F S2x10000x10000 .f32) (main_arg2 : FVec F S2x128x128 .f32) (main_arg3 : FVec F S2x128x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128x64 .f32 := Host.absf main_arg3
  let main_cst_4 : FVec F S_ .f32 := constant S_ .f32 0x7F800000#32
  let main_v15 : FVec F S2x128x64 .f32 := broadcastInDim S2x128x64 ![] bcast_S_S2x128x64 main_cst_4
  let main_v16 : IVec S2x128x64 1 := cmpf .olt main_v14 main_v15
  fn_part1 (F := F) main_v13 main_v16
-- ==== Kernel.lean ====
abbrev S10000x128 : Shape := ⟨2, ![10000, 128]⟩
abbrev S2x10000x10000 : Shape := ⟨3, ![2, 10000, 10000]⟩
abbrev S2x128x128 : Shape := ⟨3, ![2, 128, 128]⟩
abbrev S2x128x64 : Shape := ⟨3, ![2, 128, 64]⟩
abbrev S2x200x10000 : Shape := ⟨3, ![2, 200, 10000]⟩
abbrev S200x128 : Shape := ⟨2, ![200, 128]⟩
abbrev S2x10000x128 : Shape := ⟨3, ![2, 10000, 128]⟩
abbrev S1x128x128 : Shape := ⟨3, ![1, 128, 128]⟩
abbrev S128x128 : Shape := ⟨2, ![128, 128]⟩
abbrev S1x10000x128 : Shape := ⟨3, ![1, 10000, 128]⟩
abbrev S1x200x10000 : Shape := ⟨3, ![1, 200, 10000]⟩
abbrev S200x10000 : Shape := ⟨2, ![200, 10000]⟩
abbrev S10000x64 : Shape := ⟨2, ![10000, 64]⟩
abbrev S200x64 : Shape := ⟨2, ![200, 64]⟩
abbrev S2x10000x64 : Shape := ⟨3, ![2, 10000, 64]⟩
abbrev S1x128x64 : Shape := ⟨3, ![1, 128, 64]⟩
abbrev S128x64 : Shape := ⟨2, ![128, 64]⟩
abbrev S1x10000x64 : Shape := ⟨3, ![1, 10000, 64]⟩

abbrev nBuf : Space → Nat
  | .hbm => 6
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S2x128x128, .f32⟩
  | .hbm, ⟨3, _⟩ => ⟨S2x128x64, .f32⟩
  | .hbm, ⟨4, _⟩ => ⟨S10000x128, .f32⟩
  | .hbm, ⟨5, _⟩ => ⟨S10000x64, .f32⟩
  | .local _ .vmem, ⟨0, _⟩ => ⟨S2x200x10000, .f32⟩
  | .local _ .vmem, ⟨1, _⟩ => ⟨S2x200x10000, .f32⟩
  | .local _ .vmem, ⟨2, _⟩ => ⟨S10000x128, .f32⟩
  | .local _ .vmem, ⟨3, _⟩ => ⟨S2x128x128, .f32⟩
  | .local _ .vmem, ⟨4, _⟩ => ⟨S200x128, .f32⟩
  | .local _ .vmem, ⟨5, _⟩ => ⟨S200x128, .f32⟩
  | .local _ .vmem, ⟨6, _⟩ => ⟨S2x10000x128, .bf16⟩
  | .local _ .vmem, ⟨7, _⟩ => ⟨S2x200x10000, .f32⟩
  | .local _ .vmem, ⟨8, _⟩ => ⟨S2x200x10000, .f32⟩
  | .local _ .vmem, ⟨9, _⟩ => ⟨S10000x128, .f32⟩
  | .local _ .vmem, ⟨10, _⟩ => ⟨S2x128x64, .f32⟩
  | .local _ .vmem, ⟨11, _⟩ => ⟨S200x64, .f32⟩
  | .local _ .vmem, ⟨12, _⟩ => ⟨S200x64, .f32⟩
  | .local _ .vmem, ⟨13, _⟩ => ⟨S2x10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  bitsLt_bf16_f32 : FTy.bits .bf16 < FTy.bits .f32
  inb_S2x10000x128_S1x10000x128_0_0_0 : ∀ a, (![0, 0, 0] : Fin 3 → Nat) a + S1x10000x128.size a ≤ S2x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  packedbf16_S2x10000x128_S1x10000x128_0_0_0 : (Rect.unit (s := S2x10000x128) ![0, 0, 0] S1x10000x128.size inb_S2x10000x128_S1x10000x128_0_0_0).PackedRows (EltTy.packing .bf16)
  inb_S2x128x128_S1x128x128_1_0_0 : ∀ a, (![1, 0, 0] : Fin 3 → Nat) a + S1x128x128.size a ≤ S2x128x128.size a
  inb_S2x10000x128_S1x10000x128_1_0_0 : ∀ a, (![1, 0, 0] : Fin 3 → Nat) a + S1x10000x128.size a ≤ S2x10000x128.size a
  packedbf16_S2x10000x128_S1x10000x128_1_0_0 : (Rect.unit (s := S2x10000x128) ![1, 0, 0] S1x10000x128.size inb_S2x10000x128_S1x10000x128_1_0_0).PackedRows (EltTy.packing .bf16)
  inb_S2x200x10000_S1x200x10000_0_0_0 : ∀ a, (![0, 0, 0] : Fin 3 → Nat) a + S1x200x10000.size a ≤ S2x200x10000.size a
  h_S1x200x10000 : 0 < S1x200x10000.numel
  shapeCasts_S1x200x10000_S200x10000 : S1x200x10000.ShapeCasts S200x10000
  inb_S2x200x10000_S1x200x10000_1_0_0 : ∀ a, (![1, 0, 0] : Fin 3 → Nat) a + S1x200x10000.size a ≤ S2x200x10000.size a
  inb_S200x128_S200x128_0_0 : ∀ a, (![0, 0] : Fin 2 → Nat) a + S200x128.size a ≤ S200x128.size a
  h_S200x128 : 0 < S200x128.numel
  shapeCasts_S10000x128_S10000x128 : S10000x128.ShapeCasts S10000x128
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S2x10000x64_S1x10000x64_0_0_0 : ∀ a, (![0, 0, 0] : Fin 3 → Nat) a + S1x10000x64.size a ≤ S2x10000x64.size a
  h_S1x10000x64 : 0 < S1x10000x64.numel
  shapeCasts_S1x10000x64_S10000x64 : S1x10000x64.ShapeCasts S10000x64
  shapeCasts_S10000x64_S1x10000x64 : S10000x64.ShapeCasts S1x10000x64
  packedbf16_S2x10000x64_S1x10000x64_0_0_0 : (Rect.unit (s := S2x10000x64) ![0, 0, 0] S1x10000x64.size inb_S2x10000x64_S1x10000x64_0_0_0).PackedRows (EltTy.packing .bf16)
  inb_S2x128x64_S1x128x64_1_0_0 : ∀ a, (![1, 0, 0] : Fin 3 → Nat) a + S1x128x64.size a ≤ S2x128x64.size a
  inb_S2x10000x64_S1x10000x64_1_0_0 : ∀ a, (![1, 0, 0] : Fin 3 → Nat) a + S1x10000x64.size a ≤ S2x10000x64.size a
  packedbf16_S2x10000x64_S1x10000x64_1_0_0 : (Rect.unit (s := S2x10000x64) ![1, 0, 0] S1x10000x64.size inb_S2x10000x64_S1x10000x64_1_0_0).PackedRows (EltTy.packing .bf16)
  inb_S200x64_S200x64_0_0 : ∀ a, (![0, 0] : Fin 2 → Nat) a + S200x64.size a ≤ S200x64.size a
  h_S200x64 : 0 < S200x64.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x200x10000.size a ≤ S2x10000x10000.size a
  hwx0_0 : ∀ i : grid0.Coords, EltTy.bits .f32 = 32 ∨ (Rect.block (s := S2x10000x10000) S2x200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128x128.size a ≤ S2x128x128.size a
  hwx0_2 : ∀ i : grid0.Coords, EltTy.bits .f32 = 32 ∨ (Rect.block (s := S2x128x128) S2x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S10000x128.size a
  hwx0_3 : ∀ i : grid0.Coords, EltTy.bits .f32 = 32 ∨ (Rect.block (s := S10000x128) S200x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x200x10000.size a ≤ S2x10000x10000.size a
  hwx1_0 : ∀ i : grid1.Coords, EltTy.bits .f32 = 32 ∨ (Rect.block (s := S2x10000x10000) S2x200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x128x64.size a ≤ S2x128x64.size a
  hwx1_2 : ∀ i : grid1.Coords, EltTy.bits .f32 = 32 ∨ (Rect.block (s := S2x128x64) S2x128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x64.size a ≤ S10000x64.size a
  hwx1_3 : ∀ i : grid1.Coords, EltTy.bits .f32 = 32 ∨ (Rect.block (s := S10000x64) S200x64.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf

abbrev win0_0 : Pipeline.Window sig grid0 :=
  Pipeline.Window.ofSpec (Memref.whole main_arg1) S2x200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S200x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2x200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2x128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S200x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S2x128x128 : Shape := ⟨3, ![2, 128, 128]⟩
abbrev S2x128x64 : Shape := ⟨3, ![2, 128, 64]⟩
abbrev S_ : Shape := ⟨0, ![]⟩
abbrev S1x10000x10000 : Shape := ⟨3, ![1, 10000, 10000]⟩
abbrev S10000x10000 : Shape := ⟨2, ![10000, 10000]⟩
abbrev S1x128x128 : Shape := ⟨3, ![1, 128, 128]⟩
abbrev S128x128 : Shape := ⟨2, ![128, 128]⟩
abbrev S10000x64 : Shape := ⟨2, ![10000, 64]⟩
abbrev S1x128x64 : Shape := ⟨3, ![1, 128, 64]⟩
abbrev S128x64 : Shape := ⟨2, ![128, 64]⟩

abbrev nBuf : Space → Nat
  | .hbm => 39
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S2x128x128, .f32⟩
  | .hbm, ⟨3, _⟩ => ⟨S2x128x64, .f32⟩
  | .hbm, ⟨4, _⟩ => ⟨S_, .f32⟩
  | .hbm, ⟨5, _⟩ => ⟨S10000x128, .f32⟩
  | .hbm, ⟨6, _⟩ => ⟨S1x10000x10000, .f32⟩
  | .hbm, ⟨7, _⟩ => ⟨S10000x10000, .f32⟩
  | .hbm, ⟨8, _⟩ => ⟨S1x128x128, .f32⟩
  | .hbm, ⟨9, _⟩ => ⟨S128x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S1x10000x10000, .f32⟩
  | .hbm, ⟨14, _⟩ => ⟨S10000x10000, .f32⟩
  | .hbm, ⟨15, _⟩ => ⟨S1x128x128, .f32⟩
  | .hbm, ⟨16, _⟩ => ⟨S128x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x64, .f32⟩
  | .hbm, ⟨25, _⟩ => ⟨S1x10000x10000, .f32⟩
  | .hbm, ⟨26, _⟩ => ⟨S10000x10000, .f32⟩
  | .hbm, ⟨27, _⟩ => ⟨S1x128x64, .f32⟩
  | .hbm, ⟨28, _⟩ => ⟨S128x64, .f32⟩
  | .hbm, ⟨29, _⟩ => ⟨S10000x64, .f32⟩
  | .hbm, ⟨30, _⟩ => ⟨S10000x64, .f32⟩
  | .hbm, ⟨31, _⟩ => ⟨S10000x64, .f32⟩
  | .hbm, ⟨32, _⟩ => ⟨S1x10000x10000, .f32⟩
  | .hbm, ⟨33, _⟩ => ⟨S10000x10000, .f32⟩
  | .hbm, ⟨34, _⟩ => ⟨S1x128x64, .f32⟩
  | .hbm, ⟨35, _⟩ => ⟨S128x64, .f32⟩
  | .hbm, ⟨36, _⟩ => ⟨S10000x64, .f32⟩
  | .hbm, ⟨37, _⟩ => ⟨S10000x64, .f32⟩
  | .hbm, ⟨38, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  slices_S2x10000x10000_S1x10000x10000_0_0_0 : S2x10000x10000.Slices ![0, 0, 0] S1x10000x10000
  shapeCasts_S1x10000x10000_S10000x10000 : S1x10000x10000.ShapeCasts S10000x10000
  slices_S2x128x128_S1x128x128_0_0_0 : S2x128x128.Slices ![0, 0, 0] S1x128x128
  shapeCasts_S1x128x128_S128x128 : S1x128x128.ShapeCasts S128x128
  slices_S2x10000x10000_S1x10000x10000_1_0_0 : S2x10000x10000.Slices ![1, 0, 0] S1x10000x10000
  slices_S2x128x128_S1x128x128_1_0_0 : S2x128x128.Slices ![1, 0, 0] S1x128x128
  bcast_S_S10000x64 : S_.BroadcastsInDim S10000x64 (![] : Fin 0 → Fin S10000x64.rank)
  slices_S2x128x64_S1x128x64_0_0_0 : S2x128x64.Slices ![0, 0, 0] S1x128x64
  shapeCasts_S1x128x64_S128x64 : S1x128x64.ShapeCasts S128x64
  slices_S2x128x64_S1x128x64_1_0_0 : S2x128x64.Slices ![1, 0, 0] S1x128x64
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KI.Body0.lean ====
import proofs.«158973_g30743375904967_cont_9to1_575_4_alg».proof.Proof.Gen.KernelIdeal.Launch
import proofs.«158973_g30743375904967_cont_9to1_575_4_alg».proof.Proof.Gen.KernelIdeal.Skeleton
import proofs.«158973_g30743375904967_cont_9to1_575_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand.L0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 0: one row-block of the polynomial graph convolution

The layer's kernel function at one grid point. At the first point it projects the features with both weight
matrices into the scratch (two slabs, one per adjacency power); at every point it multiplies the row-block of each
adjacency power by that power's slab and adds the two products (the hidden layer then clamps the sum at zero, the
output layer does not: the difference is inside the stored payload). -/

/-- The guard of the projection: the grid coordinate is zero. -/
abbrev isFirst (i : grid0.Coords) : Prop :=
  (Scalar.cmpi .ne (Scalar.extui (Scalar.cmpi .eq (BitVec.ofNat 32 (i 0).val) 0#32)) 0#32) = 1#1

/-- The two adjacency powers' row-blocks inside the staged block, -/
abbrev rA0 : Rect S2x200x10000 := Rect.unit (s := S2x200x10000) ![0, 0, 0] S1x200x10000.size inb_S2x200x10000_S1x200x10000_0_0_0
abbrev rA1 : Rect S2x200x10000 := Rect.unit (s := S2x200x10000) ![1, 0, 0] S1x200x10000.size inb_S2x200x10000_S1x200x10000_1_0_0
/-- the whole feature matrix, -/
abbrev rX : Rect S10000x128 := Rect.unit (s := S10000x128) ![0, 0] S10000x128.size inb_S10000x128_S10000x128_0_0
/-- the two weight matrices, -/
abbrev rW0 : Rect S2x128x128 := Rect.unit (s := S2x128x128) ![0, 0, 0] S1x128x128.size inb_S2x128x128_S1x128x128_0_0_0
abbrev rW1 : Rect S2x128x128 := Rect.unit (s := S2x128x128) ![1, 0, 0] S1x128x128.size inb_S2x128x128_S1x128x128_1_0_0
/-- the two slabs of projected features in the scratch, -/
abbrev rS0 : Rect S2x10000x128 := Rect.unit (s := S2x10000x128) ![0, 0, 0] S1x10000x128.size inb_S2x10000x128_S1x10000x128_0_0_0
abbrev rS1 : Rect S2x10000x128 := Rect.unit (s := S2x10000x128) ![1, 0, 0] S1x10000x128.size inb_S2x10000x128_S1x10000x128_1_0_0
/-- and the whole output block. -/
abbrev rO : Rect S200x128 := Rect.unit (s := S200x128) ![0, 0] S200x128.size inb_S200x128_S200x128_0_0

/-- The projected features: slab `p` holds `x · W p`, as the first point leaves them in the scratch. -/
def proj (x : Vec F S10000x128 .f32) (w : Vec F S2x128x128 .f32) : Vec F S2x10000x128 .bf16 :=
  View.canon [⟨rS1, k0_pay2 (View.ld x rX) (View.ld w rW1)⟩, ⟨rS0, k0_pay1 (View.ld x rX) (View.ld w rW0)⟩]

/-- The output block of a point: from the staged adjacency row-blocks `a` and the scratch `s`. -/
def outv (a : Vec F S2x200x10000 .f32) (s : Vec F S2x10000x128 .bf16) : Vec F S200x128 .f32 :=
  View.canon [⟨rO, k0_pay3 (View.ld a rA0) (View.ld s rS0) (View.ld a rA1) (View.ld s rS1)⟩]

/-- The two slab stores tile the scratch. -/
theorem coverS (p1 : Vec F S1x10000x128 .bf16) (p0 : Vec F S1x10000x128 .bf16) (y : S2x10000x128.Idx) :
    ∃ pc ∈ ([⟨rS1, p1⟩, ⟨rS0, p0⟩] : List (View.Piece (Elt F) S2x10000x128 .bf16)), y ∈ pc.1.set :=
  View.cover_of_tiled [⟨rS1, p1⟩, ⟨rS0, p0⟩] S1x10000x128.size (by rfl) y

/-- The one output store covers the output block. -/
theorem coverO (p : Vec F S200x128 .f32) (y : S200x128.Idx) :
    ∃ pc ∈ ([⟨rO, p⟩] : List (View.Piece (Elt F) S200x128 .f32)), y ∈ pc.1.set :=
  View.cover_of_tiled [⟨rO, p⟩] S200x128.size (by rfl) y

set_option maxHeartbeats 4000000 in
/-- The first point: whatever the scratch and the output buffer held, the body leaves the scratch at the projected
    features and the output buffer at the block computed from them; the inputs stay. -/
theorem run_first (c : Dev nD) (E : Set ℕ) (i : grid0.Coords) (hi : isFirst i)
    (arg1 : Memref sig .tc .vmem S2x200x10000 .f32) (harg1 : arg1.IsWhole) (arg2 : Memref sig .tc .vmem S10000x128 .f32) (harg2 : arg2.IsWhole)
    (arg3 : Memref sig .tc .vmem S2x128x128 .f32) (harg3 : arg3.IsWhole) (arg4 : Memref sig .tc .vmem S200x128 .f32) (harg4 : arg4.IsWhole)
    (arg5 : Memref sig .tc .vmem S2x10000x128 .bf16) (harg5 : arg5.IsWhole)
    (a : Vec F S2x200x10000 .f32) (x : Vec F S10000x128 .f32) (w : Vec F S2x128x128 .f32) (K : PUnit → sProp 𝕄) :
    iprop(owns (c : Thread nD τ) arg1 fullShare a ∗ owns (c : Thread nD τ) arg2 fullShare x ∗ owns (c : Thread nD τ) arg3 fullShare w
        ∗ (∃ d, owns (c : Thread nD τ) arg4 fullShare d) ∗ (∃ d, owns (c : Thread nD τ) arg5 fullShare d)
        ∗ (iprop(owns (c : Thread nD τ) arg1 fullShare a ∗ owns (c : Thread nD τ) arg2 fullShare x ∗ owns (c : Thread nD τ) arg3 fullShare w
            ∗ owns (c : Thread nD τ) arg4 fullShare (outv a (proj x w)) ∗ owns (c : Thread nD τ) arg5 fullShare (proj x w)) -∗ K ⟨⟩))
      ⊢ wp frame (wpE (defs₀ (F := F)) Variants.none c none) E (cc0__layer_body i arg1 harg1 arg2 harg2 arg3 harg3 arg4 harg4 arg5 harg5) K := by
  simp only [cc0__layer_body_eq_skeleton]; unfold cc0__layer_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec (disch := exact hi)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (coverO _)]
    unfold outv proj
    rw [View.readCov_eq_canon_ld _ _ _ (coverS _ _), View.readCov_eq_canon_ld _ _ _ (coverS _ _)]
    rfl
  · iexists _; isplitr
    swap; · iexact H5
    ipureintro
    sl_unfold_run_names
    exact View.read_writes_eq_canon _ _ _ (coverS _ _)

set_option maxHeartbeats 4000000 in
/-- A later point: the scratch holds `s` and keeps it; the output buffer is left at the block computed from it. -/
theorem run_rest (c : Dev nD) (E : Set ℕ) (i : grid0.Coords) (hi : ¬isFirst i)
    (arg1 : Memref sig .tc .vmem S2x200x10000 .f32) (harg1 : arg1.IsWhole) (arg2 : Memref sig .tc .vmem S10000x128 .f32) (harg2 : arg2.IsWhole)
    (arg3 : Memref sig .tc .vmem S2x128x128 .f32) (harg3 : arg3.IsWhole) (arg4 : Memref sig .tc .vmem S200x128 .f32) (harg4 : arg4.IsWhole)
    (arg5 : Memref sig .tc .vmem S2x10000x128 .bf16) (harg5 : arg5.IsWhole)
    (a : Vec F S2x200x10000 .f32) (x : Vec F S10000x128 .f32) (w : Vec F S2x128x128 .f32) (s : Vec F S2x10000x128 .bf16) (K : PUnit → sProp 𝕄) :
    iprop(owns (c : Thread nD τ) arg1 fullShare a ∗ owns (c : Thread nD τ) arg2 fullShare x ∗ owns (c : Thread nD τ) arg3 fullShare w
        ∗ (∃ d, owns (c : Thread nD τ) arg4 fullShare d) ∗ owns (c : Thread nD τ) arg5 fullShare s
        ∗ (iprop(owns (c : Thread nD τ) arg1 fullShare a ∗ owns (c : Thread nD τ) arg2 fullShare x ∗ owns (c : Thread nD τ) arg3 fullShare w
            ∗ owns (c : Thread nD τ) arg4 fullShare (outv a s) ∗ owns (c : Thread nD τ) arg5 fullShare s) -∗ K ⟨⟩))
      ⊢ wp frame (wpE (defs₀ (F := F)) Variants.none c none) E (cc0__layer_body i arg1 harg1 arg2 harg2 arg3 harg3 arg4 harg4 arg5 harg5) K := by
  simp only [cc0__layer_body_eq_skeleton]; unfold cc0__layer_body_skel
  unfold owns
  iintro ⟨⟨%f1, %hf1, H1⟩, ⟨%f2, %hf2, H2⟩, ⟨%f3, %hf3, H3⟩, ⟨%d4, %f4, -, H4⟩, ⟨%f5, %hf5, H5⟩, Hk⟩
  subst hf1; subst hf2; subst hf3; subst hf5
  sl_exec (disch := exact hi)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  · iexists f5; isplitr; · ipureintro; rfl
    iexact H5

end Cert.KernelIdeal.Hand.L0

end
-- ==== Proof.KI.Region0.lean ====
import proofs.«158973_g30743375904967_cont_9to1_575_4_alg».proof.Proof.Gen.KernelIdeal.Launch
import proofs.«158973_g30743375904967_cont_9to1_575_4_alg».proof.Proof.Gen.KernelIdeal.Skeleton
import proofs.«158973_g30743375904967_cont_9to1_575_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«158973_g30743375904967_cont_9to1_575_4_alg».proof.Proof.KI.Body0
set_option maxRecDepth 16384

noncomputable section

namespace Cert.KernelIdeal.Hand.L0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 0 as a pipeline: the proof data, and the body at every grid point

Entered with the core's buffers at `V`. The adjacency window moves one row-block per point; the feature matrix and
the weights are staged whole, once. The scratch holds, from the first point on, the projected features of the whole
feature matrix: the invariant carries it at that one value, and every point's output block is computed from it. -/

section
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev t₀ : Fin cfg0.N := ⟨0, by decide⟩

/-- The scratch from the first point on: the projection of the whole feature matrix by both weight matrices. -/
def scr (c : Dev nD) : Vec F S2x10000x128 .bf16 := proj (iblk V c 1 t₀) (iblk V c 2 t₀)

/-- The scratch operand, a whole scoped buffer of the kernel's own. -/
abbrev scM : Memref sig .tc .vmem S2x10000x128 .bf16 := Memref.whole cc0_scratch0

/-- The scoped buffers that are neither a staging buffer of this call nor its scratch, at some contents each. -/
abbrev others (c : Dev nD) : sProp 𝕄 :=
  Pipeline.scopedRestBut (Ix := Unit) (Name := ℕ) (U := UR sig nD τ) (Lvl := ℕ) (Val := Elt F) spec0 c [cc0_scratch0]

/-- The class invariant with the scratch set apart. -/
theorem PhiA_eq (c : Dev nD) :
    (Pipeline.ΦA spec0 c : sProp 𝕄)
      = iprop(((∃ d, owns (c : Thread nD τ) scM fullShare d) ∗ others (F := F) c) ∗ (∃ r, prngReg c r)) := by
  unfold Pipeline.ΦA
  rw [Pipeline.scopedRest_split_of_list spec0 c [cc0_scratch0] (by decide) (by decide)]
  simp only [scM, owns_whole]
  rfl

/-- The invariant before position `n`: before the first point the class's (the scratch at anything); afterwards
    the scratch at the projected features. -/
def Phi (c : Dev nD) : ℕ → sProp 𝕄
  | 0 => Pipeline.ΦA spec0 c
  | _ + 1 => iprop((owns (c : Thread nD τ) scM fullShare (scr V c) ∗ others (F := F) c) ∗ (∃ r, prngReg c r))

/-- The proof data: the arrays as the region finds them; each input's buffer keeps its block; the output's buffer is
    left at the point's block; the invariant `Phi`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outv (iblk V c 0 t) (scr V c)
  Φ t := Phi V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outv (iblk V c 0 t) (scr V c) := by dsimp only [dat]

/-- Each input's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The projection's guard holds at the first point and at no other. -/
theorem first_iff : ∀ t : Fin cfg0.N, isFirst (grid0.coords t) ↔ t.val = 0 :=
  (by decide +kernel : ∀ t : Fin grid0.N, isFirst (grid0.coords t) ↔ t.val = 0)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

set_option maxHeartbeats 2000000 in
/-- The body at any point. At the first the invariant hands the scratch over at anything and takes it back at the
    projected features; at a later one it hands it over at them and takes it back unchanged. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl,
    show (dat V c).Φ t.succ = Phi V c (t.val + 1) from rfl,
    show (dat V c).Φ t.castSucc = Phi V c t.val from rfl,
    after_0, after_1, after_2, after_3]
  by_cases hz : t.val = 0
  · have ht : t = t₀ := Fin.ext hz
    rw [hz, show Phi V c 0 = Pipeline.ΦA spec0 c from rfl, PhiA_eq, show Phi V c (0 + 1) = iprop((owns (c : Thread nD τ) scM fullShare (scr V c) ∗ others (F := F) c) ∗ (∃ r, prngReg c r)) from rfl]
    iintro ⟨⟨⟨HS, Hrest⟩, Hg⟩, Ho, ⟨%d0, H0⟩, ⟨%d1, H1⟩, ⟨%d2, H2⟩, ⟨%d3, H3⟩⟩
    iapply (run_first c Set.univ (grid0.coords t) ((first_iff t).mpr hz) _ _ _ _ _ _ _ _ _ _ (iblk V c 0 t) (iblk V c 1 t) (iblk V c 2 t) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitr [Hg]
      swap; · iexact Hg
      isplitl [HS]
      · unfold scr; rw [← ht]; iexact HS
      iexact Hrest
    isplitl [Ho]; · iexact Ho
    isplitl [H0]; · iexact H0
    isplitl [H1]; · iexact H1
    isplitl [H2]; · iexact H2
    unfold scr; rw [← ht]; iexact H3
  · obtain ⟨n, hn⟩ : ∃ n, t.val = n + 1 := Nat.exists_eq_succ_of_ne_zero hz
    rw [hn, show Phi V c (n + 1) = iprop((owns (c : Thread nD τ) scM fullShare (scr V c) ∗ others (F := F) c) ∗ (∃ r, prngReg c r)) from rfl,
      show Phi V c (n + 1 + 1) = iprop((owns (c : Thread nD τ) scM fullShare (scr V c) ∗ others (F := F) c) ∗ (∃ r, prngReg c r)) from rfl]
    iintro ⟨⟨⟨HS, Hrest⟩, Hg⟩, Ho, ⟨%d0, H0⟩, ⟨%d1, H1⟩, ⟨%d2, H2⟩, ⟨%d3, H3⟩⟩
    iapply (run_rest c Set.univ (grid0.coords t) (fun h => hz ((first_iff t).mp h)) _ _ _ _ _ _ _ _ _ _ (iblk V c 0 t) (iblk V c 1 t) (iblk V c 2 t) (scr V c) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitr [Hg]
      swap; · iexact Hg
      isplitl [HS]; · iexact HS
      iexact Hrest
    isplitl [Ho]; · iexact Ho
    isplitl [H0]; · iexact H0
    isplitl [H1]; · iexact H1
    isplitl [H2]; · iexact H2
    iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem Phi_in (c : Dev nD) : (dat V c).Φ 0 = Pipeline.ΦA spec0 c := rfl

/-- After the last point the invariant gives the class's back: the scratch's contents are forgotten. -/
theorem Phi_out (c : Dev nD) : (dat V c).Φ (Fin.last cfg0.N) ⊢ Pipeline.ΦA spec0 c := by
  rw [show (dat V c).Φ (Fin.last cfg0.N) = iprop((owns (c : Thread nD τ) scM fullShare (scr V c) ∗ others (F := F) c) ∗ (∃ r, prngReg c r)) from rfl, PhiA_eq]
  iintro ⟨⟨HS, Hrest⟩, Hg⟩
  isplitr [Hg]
  swap; · iexact Hg
  isplitl [HS]; · iexists _; iexact HS
  iexact Hrest

end

end Cert.KernelIdeal.Hand.L0

end
-- ==== Proof.KI.Run.lean ====
import proofs.«158973_g30743375904967_cont_9to1_575_4_alg».proof.Proof.Gen.KernelIdeal.Launch
import proofs.«158973_g30743375904967_cont_9to1_575_4_alg».proof.Proof.Gen.KernelIdeal.Skeleton
import proofs.«158973_g30743375904967_cont_9to1_575_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«158973_g30743375904967_cont_9to1_575_4_alg».proof.Proof.Gen.KernelIdeal.Regions
import proofs.«158973_g30743375904967_cont_9to1_575_4_alg».proof.Proof.KI.Region0
import proofs.«158973_g30743375904967_cont_9to1_575_4_alg».proof.Proof.KI.Region1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two layers in sequence

The hidden layer's pipeline runs from the launch contents and leaves the hidden features in `main_v0`; the output
layer's pipeline runs from there and leaves the result in `main_v1`. Neither writes an argument. -/

variable (m : (ℓ : Loc nD τ sig) → Buf (Elt F) ℓ) (ρ : Dev nD → PrngReg)

/-- The buffers the hidden layer is entered from: the launch contents. -/
abbrev E0 : (c : Dev nD) → (b : Ref sig .tc) → Buf (Elt F) ((c : Thread nD τ).loc b) := fun c b => Gen.V0 m c b

/-- What the hidden layer's write-backs leave in `main_v0`. -/
def hidArr (c : Dev nD) : Buf (Elt F) ((c : Thread nD τ).loc main_v0) := (L0.dat (E0 m) c).arrAt 3 cfg0.N

/-- The buffers between the layers: the launch contents with `main_v0` at the hidden features. -/
def W1 (c : Dev nD) : Valuation τ sig (Elt F) := Function.update (Gen.V0 m c) main_v0 (hidArr m c)

/-- The same read at the TensorCore's references: what the output layer is entered from. -/
abbrev E1 : (c : Dev nD) → (b : Ref sig .tc) → Buf (Elt F) ((c : Thread nD τ).loc b) := fun c b => W1 m c b

/-- What the output layer's write-backs leave in `main_v1`. -/
def outArr (c : Dev nD) : Buf (Elt F) ((c : Thread nD τ).loc main_v1) := (L1.dat (E1 m) c).arrAt 3 cfg1.N

/-- The buffers at the end: `main_v1` at the result. -/
def W2 (c : Dev nD) : Valuation τ sig (Elt F) := Function.update (W1 m c) main_v1 (outArr m c)

/-- What each layer leaves in the buffer it writes, as the conditional frame wants it: by item. -/
def outs : Gen.Outs (F := F) := fun J r c => match J with
  | 1 => W1 m c r
  | _ => W2 m c r

/-- The valuation between the layers, off and at `main_v0`; the last one, off and at `main_v1`. -/
theorem W1_of_ne (c : Dev nD) (b : Ref sig .tc) (h : b ≠ main_v0) : W1 m c b = Gen.V0 m c b := by
  unfold W1; exact Function.update_of_ne (StableHlo.devRef_ne_of_ne h) _ _
theorem W1_hid (c : Dev nD) : W1 m c main_v0 = hidArr m c := by
  unfold W1; exact Function.update_self _ _ _
theorem W2_of_ne (c : Dev nD) (b : Ref sig .tc) (h : b ≠ main_v1) : W2 m c b = W1 m c b := by
  unfold W2; exact Function.update_of_ne (StableHlo.devRef_ne_of_ne h) _ _
theorem W2_out (c : Dev nD) : W2 m c main_v1 = outArr m c := by
  unfold W2; exact Function.update_self _ _ _

theorem outs_hid (c : Dev nD) : outs m 1 main_v0 c = hidArr m c := W1_hid m c
theorem outs_out (c : Dev nD) : outs m 2 main_v1 c = outArr m c := W2_out m c

/-- The conditional frame's valuations are these. -/
theorem V1_eq (c : Dev nD) : Gen.V1 m (outs m) c = W1 m c := by
  show Function.update (Gen.V0 m c) main_v0 (outs m 1 main_v0 c) = _
  rw [outs_hid]; rfl
theorem V2_eq (c : Dev nD) : Gen.V2 m (outs m) c = W2 m c := by
  show Function.update (Gen.V1 m (outs m) c) main_v1 (outs m 2 main_v1 c) = _
  rw [outs_out, V1_eq]; rfl

/-- Every pipeline's proof data, each at its layer's entry contents. -/
def pdats : (p : Fin 2) → (c : Dev nD) → Dat τ (Elt F) Unit ℕ (UR sig nD τ) ℕ (cfgs p) c
  | ⟨0, _⟩ => fun c => L0.dat (E0 m) c
  | ⟨1, _⟩ => fun c => L1.dat (E1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers between the items: the generator register at some state, and nothing owed. -/
abbrev R (c : Dev nD) : sProp 𝕄 := iprop((∃ r, prngReg c r) ∗ ∃ W, owes (c : Thread nD τ) (0 : CellTallies nD τ sig Unit) W)

/-- The hidden layer's arrays after it: the inputs as entered, `main_v0` at the hidden features. -/
theorem hF0 (c : Dev nD) (w : Fin cfg0.W) : (L0.dat (E0 m) c).arrAt w cfg0.N = E1 m c (Pipeline.arrRef spec0 w) := by
  match w with
  | ⟨0, _⟩ => exact (((L0.dat (E0 m) c).arrAt_in 0 rfl _).trans (L0.A_eq (E0 m) c 0)).trans (W1_of_ne m c (Pipeline.arrRef spec0 0) (by decide)).symm
  | ⟨1, _⟩ => exact (((L0.dat (E0 m) c).arrAt_in 1 rfl _).trans (L0.A_eq (E0 m) c 1)).trans (W1_of_ne m c (Pipeline.arrRef spec0 1) (by decide)).symm
  | ⟨2, _⟩ => exact (((L0.dat (E0 m) c).arrAt_in 2 rfl _).trans (L0.A_eq (E0 m) c 2)).trans (W1_of_ne m c (Pipeline.arrRef spec0 2) (by decide)).symm
  | ⟨3, _⟩ => exact (W1_hid m c).symm
theorem hrest0 (c : Dev nD) : ∀ b, b ∉ Finset.univ.image (Pipeline.arrRef spec0) → E1 m c b = E0 m c b :=
  fun b hb => W1_of_ne m c b fun e => hb (Finset.mem_image.mpr ⟨3, Finset.mem_univ _, e.symm⟩)

/-- The output layer's arrays after it: the inputs as entered, `main_v1` at the result. -/
theorem hF1 (c : Dev nD) (w : Fin cfg1.W) : (L1.dat (E1 m) c).arrAt w cfg1.N = (fun b : Ref sig .tc => W2 m c b) (Pipeline.arrRef spec1 w) := by
  match w with
  | ⟨0, _⟩ => exact (((L1.dat (E1 m) c).arrAt_in 0 rfl _).trans (L1.A_eq (E1 m) c 0)).trans (W2_of_ne m c (Pipeline.arrRef spec1 0) (by decide)).symm
  | ⟨1, _⟩ => exact (((L1.dat (E1 m) c).arrAt_in 1 rfl _).trans (L1.A_eq (E1 m) c 1)).trans (W2_of_ne m c (Pipeline.arrRef spec1 1) (by decide)).symm
  | ⟨2, _⟩ => exact (((L1.dat (E1 m) c).arrAt_in 2 rfl _).trans (L1.A_eq (E1 m) c 2)).trans (W2_of_ne m c (Pipeline.arrRef spec1 2) (by decide)).symm
  | ⟨3, _⟩ => exact (W2_out m c).symm
theorem hrest1 (c : Dev nD) : ∀ b, b ∉ Finset.univ.image (Pipeline.arrRef spec1) → (fun b : Ref sig .tc => W2 m c b) b = E1 m c b :=
  fun b hb => W2_of_ne m c b fun e => hb (Finset.mem_image.mpr ⟨3, Finset.mem_univ _, e.symm⟩)

set_option backward.isDefEq.respectTransparency.types false in
/-- The hidden layer as a segment of @main: entered with every unscoped buffer at the launch contents, left with
    `main_v0` at the hidden features. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (L0.body_obligation (E0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from L0.Phi_out (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output layer as a segment of @main: entered with `main_v0` at the hidden features, left with `main_v1` at
    the result. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (L1.body_obligation (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from L1.Phi_out (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b : Ref sig .tc => W2 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The launch's element is the pipeline library's own; no ghost resource beside it. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals makes the first thread state on every core. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (R (F := F)) : sProp 𝕄) := by
  refine Pipeline.initEach L lv fun c => ?_
  iintro ⟨⟨-, HO, -, Hp, -⟩, -⟩
  imodintro
  isplitl [Hp]; · iexists _; iexact Hp
  iexists ∅; iexact HO

set_option backward.isDefEq.respectTransparency.types false in
/-- THE FRAME: every weakly fair execution of @main terminates, nothing faulting, with every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () 𝒱₀ L lv (fun _ _ => rfl) ρ (outs m) (pdats m) (0 : Dev nD → CellTallies nD τ sig Unit) (fun _ => (BI.emp : sProp 𝕄))
    (initOf (Pipeline.cells cfgs cellOf_inj) (Pipeline.launchToks cfgs cellOf_inj)) hu₀
    (fun _ c => R c) (hE0 ρ) (fun c => by iintro ⟨-, H⟩; iexact H)
    (reg0 m) (fun c => .rfl) (fun c => by rw [V1_eq]; exact .rfl)
    (reg1 m) (fun c => by rw [V1_eq]; exact .rfl) (fun c => by rw [V2_eq]; exact .rfl)

end Cert.KernelIdeal.Hand

end
-- ==== Proof.KI.RunValue.lean ====
import proofs.«158973_g30743375904967_cont_9to1_575_4_alg».proof.Proof.Gen.KernelIdeal.Launch
import proofs.«158973_g30743375904967_cont_9to1_575_4_alg».proof.Proof.Gen.KernelIdeal.Skeleton
import proofs.«158973_g30743375904967_cont_9to1_575_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«158973_g30743375904967_cont_9to1_575_4_alg».proof.Proof.KI.Run
import proofs.«158973_g30743375904967_cont_9to1_575_4_alg».proof.Proof.KI.RunCond
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run with the result named

The same launch as the frame's, read once more at the result buffer: `main_v1` ends at what the output layer's
write-backs leave in it. -/

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (outs_out m c), (h c).2⟩)
    (GenP.run_cond m emb₁ () 𝒱₀ L lv (fun _ _ => rfl) ρ (outs m) (pdats m) (0 : Dev nD → CellTallies nD τ sig Unit) (fun _ => (BI.emp : sProp 𝕄))
      (initOf (Pipeline.cells cfgs cellOf_inj) (Pipeline.launchToks cfgs cellOf_inj)) hu₀
      (fun _ c => R c) (hE0 ρ) (fun c => by iintro ⟨-, H⟩; iexact H)
      (reg0 m) (fun c => .rfl) (fun c => by rw [V1_eq]; exact .rfl)
      (reg1 m) (fun c => by rw [V1_eq]; exact .rfl) (fun c => by rw [V2_eq]; exact .rfl))

end Cert.KernelIdeal.Hand

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KI.Pay0.lean ====
/-
  Layer 0's two stored values read at an entry.

  The scratch the first grid point leaves holds, in slab `p`, the features times the `p`-th weight matrix:
  entry `(p, k, j)` is `∑ d, x (k, d) * w (p, d, j)`. The output block of a grid point is the row-block of the
  first adjacency power times slab 0 plus the row-block of the second times slab 1, clamped below at zero:
  entry `(r, j)` is `max ((∑ k, a (0, r, k) * s (0, k, j)) + ∑ k, a (1, r, k) * s (1, k, j)) 0`.

  Over the extended reals the roundings to the narrower format are the identity and a matrix product into the
  zero accumulator is the plain sum of products, so each entry is read off by pushing the index through the
  stored value: the slab (a unit-stride rectangle at a literal offset) places entry `(0, k, j)` of what was
  stored at `(p, k, j)`; the casts between `[1, a, b]` and `[a, b]` drop or add the leading coordinate; the
  matrix product is read by the plain-product lemma.
-/
import proofs.«158973_g30743375904967_cont_9to1_575_4_alg».proof.Proof.KI.Body0
import proofs.«158973_g30743375904967_cont_9to1_575_4_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand.L0

open Cert.KernelIdeal Cert.KernelIdeal.Gen
open Idealize.ShloMosaic Idealize.ShloMosaic.ValueIdx

/-! ## The two matrix products at an entry -/

/-- Features times one weight matrix, at entry `(k, j)`. -/
theorem mm_proj (l : FVec Ideal S10000x128 .f32) (r : FVec Ideal S128x128 .f32) (k : Fin 10000) (j : Fin 128) :
    matmul dot_S10000x128_S128x128_S10000x128_1_0_0_1_n_n none l r (constant (F := Ideal) S10000x128 .f32 0x00000000#32) (ix2 k j)
      = ∑ d : Fin 128, l (ix2 k d) * r (ix2 d j) :=
  Cert.Lib.PlainDot.matmul_zero_apply none l r k j

/-- An adjacency row-block times one slab, at entry `(r, j)`. -/
theorem mm_out (l : FVec Ideal S200x10000 .bf16) (r : FVec Ideal S10000x128 .bf16) (p : Fin 200) (j : Fin 128) :
    matmul dot_S200x10000_S10000x128_S200x128_1_0_0_1_n_n none l r (constant (F := Ideal) S200x128 .f32 0x00000000#32) (ix2 p j)
      = ∑ k : Fin 10000, l (ix2 p k) * r (ix2 k j) :=
  Cert.Lib.PlainDot.matmul_zero_apply none l r p j

/-! ## Where the rectangles sit -/

/-- A slab of a three-axis array at offset `(o, 0, 0)` places its entry `(0, k, j)` at `(o, k, j)`. -/
theorem idx_slab {n a b : Nat} (o : Fin n) (sz : Fin 3 → Nat) (hsz : sz = ![1, a, b])
    (inb : ∀ c, (![o.val, 0, 0] : Fin 3 → Nat) c + sz c ≤ (⟨3, ![n, a, b]⟩ : Shape).size c)
    (x : (Rect.unit (s := ⟨3, ![n, a, b]⟩) ![o.val, 0, 0] sz inb).shape.Idx) (k : Fin a) (j : Fin b)
    (hk : (x 1).val = k.val) (hj : (x 2).val = j.val) :
    (Rect.unit (s := ⟨3, ![n, a, b]⟩) ![o.val, 0, 0] sz inb).idx x = ix3 o k j := by
  subst hsz
  funext c
  apply Fin.ext
  have h0 : (x 0).val = 0 := by have := (x 0).isLt; simpa using this
  match c with
  | ⟨0, _⟩ => show o.val + 1 * (x 0).val = o.val; omega
  | ⟨1, _⟩ => show 0 + 1 * (x 1).val = k.val; omega
  | ⟨2, _⟩ => show 0 + 1 * (x 2).val = j.val; omega

/-- The whole of a two-axis array, as a rectangle at offset `(0, 0)`, places each entry at itself. -/
theorem idx_whole2 {a b : Nat} (sz : Fin 2 → Nat) (hsz : sz = ![a, b])
    (inb : ∀ c, (![0, 0] : Fin 2 → Nat) c + sz c ≤ (⟨2, ![a, b]⟩ : Shape).size c)
    (x : (Rect.unit (s := ⟨2, ![a, b]⟩) ![0, 0] sz inb).shape.Idx) (k : Fin a) (j : Fin b)
    (hk : (x 0).val = k.val) (hj : (x 1).val = j.val) :
    (Rect.unit (s := ⟨2, ![a, b]⟩) ![0, 0] sz inb).idx x = ix2 k j := by
  subst hsz
  funext c
  apply Fin.ext
  match c with
  | ⟨0, _⟩ => show 0 + 1 * (x 0).val = k.val; omega
  | ⟨1, _⟩ => show 0 + 1 * (x 1).val = j.val; omega

/-- Under the last write, at the place of the write's entry `x`, the contents are the write's value at `x`. -/
theorem canon_cons_idx {S : Shape} {e : EltTy} (r : Rect S) (v : r.shape.Idx → Elt Ideal e)
    (L : List (View.Piece (Elt Ideal) S e)) (x : r.shape.Idx) (y : S.Idx) (h : r.idx x = y) :
    View.canon (⟨r, v⟩ :: L) y = v x := by
  subst h; exact View.canon_cons_emb r v L x

/-- Off the last write's rectangle, the contents are what the earlier writes left. -/
theorem canon_cons_skip {S : Shape} {e : EltTy} (r : Rect S) (v : r.shape.Idx → Elt Ideal e)
    (L : List (View.Piece (Elt Ideal) S e)) (y : S.Idx) (h : y ∉ r.set) :
    View.canon (⟨r, v⟩ :: L) y = View.canon L y :=
  View.canon_cons_of_not_mem ⟨r, v⟩ L h

/-- Slab 0 does not reach slab 1's rectangle. -/
theorem slab0_not_mem_rS1 (k : Fin 10000) (j : Fin 128) : ix3 (0 : Fin 2) k j ∉ rS1.set := fun h => by
  have h0 := (Rect.mem_set_unit.1 h 0).1
  exact Nat.not_succ_le_zero 0 h0

/-! ## The stored values at an entry -/

/-- Slab 0's stored value at entry `(0, k, j)`: row `k` of the features against column `j` of the weight matrix. -/
theorem pay1_apply (x : Vec Ideal S10000x128 .f32) (w1 : Vec Ideal S1x128x128 .f32) (k : Fin 10000) (j : Fin 128) :
    k0_pay1 (F := Ideal) x w1 (ix3 (0 : Fin 1) k j) = ∑ d : Fin 128, x (ix2 k d) * w1 (ix3 (0 : Fin 1) d j) := by
  unfold k0_pay1
  refine (shapeCast_ab_1ab_apply _ _ 0 k j).trans ?_
  refine (truncf_apply (ψ := .bf16) _ bitsLt_bf16_f32 (ix2 k j)).trans ?_
  refine (mm_proj _ _ k j).trans ?_
  refine Finset.sum_congr rfl fun d _ => ?_
  rw [shapeCast_1ab_ab_apply]

/-- Slab 1's stored value at entry `(0, k, j)`: the same product with the second weight matrix. -/
theorem pay2_apply (x : Vec Ideal S10000x128 .f32) (w1 : Vec Ideal S1x128x128 .f32) (k : Fin 10000) (j : Fin 128) :
    k0_pay2 (F := Ideal) x w1 (ix3 (0 : Fin 1) k j) = ∑ d : Fin 128, x (ix2 k d) * w1 (ix3 (0 : Fin 1) d j) := by
  unfold k0_pay2
  refine (shapeCast_ab_1ab_apply _ _ 0 k j).trans ?_
  refine (truncf_apply (ψ := .bf16) _ bitsLt_bf16_f32 (ix2 k j)).trans ?_
  refine (mm_proj _ _ k j).trans ?_
  refine Finset.sum_congr rfl fun d _ => ?_
  rw [shapeCast_1ab_ab_apply]

/-- One adjacency row-block against one slab, at entry `(r, j)`, through the casts that drop the leading axis. -/
theorem mm_out_cast (a0 : FVec Ideal S1x200x10000 .f32) (s0 : FVec Ideal S1x10000x128 .bf16) (r : Fin 200) (j : Fin 128) :
    matmul dot_S200x10000_S10000x128_S200x128_1_0_0_1_n_n none
        (truncf .bf16 (shapeCast S200x10000 a0 shapeCasts_S1x200x10000_S200x10000) bitsLt_bf16_f32)
        (shapeCast S10000x128 s0 shapeCasts_S1x10000x128_S10000x128)
        (constant (F := Ideal) S200x128 .f32 0x00000000#32) (ix2 r j)
      = ∑ k : Fin 10000, a0 (ix3 (0 : Fin 1) r k) * s0 (ix3 (0 : Fin 1) k j) := by
  refine (mm_out _ _ r j).trans ?_
  refine Finset.sum_congr rfl fun k _ => ?_
  refine (congrArg (· * _) (truncf_apply (ψ := .bf16) _ bitsLt_bf16_f32 (ix2 r k))).trans ?_
  rw [shapeCast_1ab_ab_apply, shapeCast_1ab_ab_apply]

/-- The output block's stored value at entry `(r, j)`: the two products added, clamped below at zero. -/
theorem pay3_apply (a0 a1 : Vec Ideal S1x200x10000 .f32) (s0 s1 : Vec Ideal S1x10000x128 .bf16) (r : Fin 200) (j : Fin 128) :
    k0_pay3 (F := Ideal) a0 s0 a1 s1 (ix2 r j)
      = max ((∑ k : Fin 10000, a0 (ix3 (0 : Fin 1) r k) * s0 (ix3 (0 : Fin 1) k j))
          + ∑ k : Fin 10000, a1 (ix3 (0 : Fin 1) r k) * s1 (ix3 (0 : Fin 1) k j)) 0 := by
  unfold k0_pay3
  refine (maximumf_apply _ _ _).trans ?_
  refine congrArg₂ max ?_ ?_
  · refine (addf_apply _ _ _).trans ?_
    exact congrArg₂ (· + ·) (mm_out_cast a0 s0 r j) (mm_out_cast a1 s1 r j)
  · exact Ideal.ofBits_zero_f32

/-! ## The scratch and the output block at an entry -/

/-- The projected features at entry `(p, k, j)`. -/
theorem proj_apply (x : Vec Ideal S10000x128 .f32) (w : Vec Ideal S2x128x128 .f32) (p : Fin 2) (k : Fin 10000) (j : Fin 128) :
    proj (F := Ideal) x w (ix3 p k j) = ∑ d : Fin 128, x (ix2 k d) * w (ix3 p d j) := by
  have hx : ∀ d : Fin 128, View.ld x rX (ix2 k d) = x (ix2 k d) := fun d =>
    congrArg x (idx_whole2 S10000x128.size rfl inb_S10000x128_S10000x128_0_0 (ix2 k d) k d rfl rfl)
  unfold proj
  match p with
  | ⟨0, _⟩ =>
    refine (canon_cons_skip rS1 _ _ _ (slab0_not_mem_rS1 k j)).trans ?_
    refine (canon_cons_idx rS0 _ [] (ix3 (0 : Fin 1) k j) _
      (idx_slab (0 : Fin 2) S1x10000x128.size rfl inb_S2x10000x128_S1x10000x128_0_0_0 _ k j rfl rfl)).trans ?_
    refine (pay1_apply _ _ k j).trans ?_
    refine Finset.sum_congr rfl fun d _ => ?_
    exact congrArg₂ (· * ·) (hx d)
      (congrArg w (idx_slab (0 : Fin 2) S1x128x128.size rfl inb_S2x128x128_S1x128x128_0_0_0 (ix3 (0 : Fin 1) d j) d j rfl rfl))
  | ⟨1, _⟩ =>
    refine (canon_cons_idx rS1 _ _ (ix3 (0 : Fin 1) k j) _
      (idx_slab (1 : Fin 2) S1x10000x128.size rfl inb_S2x10000x128_S1x10000x128_1_0_0 _ k j rfl rfl)).trans ?_
    refine (pay2_apply _ _ k j).trans ?_
    refine Finset.sum_congr rfl fun d _ => ?_
    exact congrArg₂ (· * ·) (hx d)
      (congrArg w (idx_slab (1 : Fin 2) S1x128x128.size rfl inb_S2x128x128_S1x128x128_1_0_0 (ix3 (0 : Fin 1) d j) d j rfl rfl))

/-- The output block at entry `(r, j)`. -/
theorem outv_apply (a : Vec Ideal S2x200x10000 .f32) (s : Vec Ideal S2x10000x128 .bf16) (r : Fin 200) (j : Fin 128) :
    outv (F := Ideal) a s (ix2 r j)
      = max ((∑ k : Fin 10000, a (ix3 0 r k) * s (ix3 0 k j)) + ∑ k : Fin 10000, a (ix3 1 r k) * s (ix3 1 k j)) 0 := by
  unfold outv
  refine (canon_cons_idx rO _ [] (ix2 r j) _
    (idx_whole2 S200x128.size rfl inb_S200x128_S200x128_0_0 (ix2 r j) r j rfl rfl)).trans ?_
  refine (pay3_apply _ _ _ _ r j).trans ?_
  refine congrArg₂ max (congrArg₂ (· + ·) ?_ ?_) rfl
  · refine Finset.sum_congr rfl fun k _ => ?_
    exact congrArg₂ (· * ·)
      (congrArg a (idx_slab (0 : Fin 2) S1x200x10000.size rfl inb_S2x200x10000_S1x200x10000_0_0_0 (ix3 (0 : Fin 1) r k) r k rfl rfl))
      (congrArg s (idx_slab (0 : Fin 2) S1x10000x128.size rfl inb_S2x10000x128_S1x10000x128_0_0_0 (ix3 (0 : Fin 1) k j) k j rfl rfl))
  · refine Finset.sum_congr rfl fun k _ => ?_
    exact congrArg₂ (· * ·)
      (congrArg a (idx_slab (1 : Fin 2) S1x200x10000.size rfl inb_S2x200x10000_S1x200x10000_1_0_0 (ix3 (0 : Fin 1) r k) r k rfl rfl))
      (congrArg s (idx_slab (1 : Fin 2) S1x10000x128.size rfl inb_S2x10000x128_S1x10000x128_1_0_0 (ix3 (0 : Fin 1) k j) k j rfl rfl))

end Cert.KernelIdeal.Hand.L0

end
-- ==== Proof.Spec.lean ====
/-
  The two-layer polynomial graph convolution, entry by entry, over the extended reals.

  With adjacency powers `A p` (p = 0, 1), features `x` and weights `w p`, a layer's entry `(r, j)` is
  `∑ₖ A 0 (r, k) · (x · w 0) (k, j) + ∑ₖ A 1 (r, k) · (x · w 1) (k, j)`, where `(x · w p) (k, j) = ∑_d x (k, d) · w p (d, j)`.
  The hidden layer clamps its entries at zero; the output layer applies the same sum to the hidden features.
-/
import Idealize.ShloMosaic.Lib.ValueIdx
import Idealize.ShloMosaic.PureOps.Ideal

noncomputable section

namespace Cert.PolySpec

open Idealize.ShloMosaic Idealize.ShloMosaic.ValueIdx

/-- The features projected by the weights of power `p`, at `(k, j)`. -/
def feat {J : ℕ} (x : (⟨2, ![10000, 128]⟩ : Shape).Idx → EReal) (w : (⟨3, ![2, 128, J]⟩ : Shape).Idx → EReal)
    (p : Fin 2) (k : Fin 10000) (j : Fin J) : EReal :=
  ∑ d : Fin 128, x (ix2 k d) * w (ix3 p d j)

/-- One layer before any clamp, at `(r, j)`: both adjacency powers applied to their projected features, added. -/
def mix {J : ℕ} (A : (⟨3, ![2, 10000, 10000]⟩ : Shape).Idx → EReal) (x : (⟨2, ![10000, 128]⟩ : Shape).Idx → EReal)
    (w : (⟨3, ![2, 128, J]⟩ : Shape).Idx → EReal) (r : Fin 10000) (j : Fin J) : EReal :=
  (∑ k : Fin 10000, A (ix3 0 r k) * feat x w 0 k j) + ∑ k : Fin 10000, A (ix3 1 r k) * feat x w 1 k j

/-- The hidden features: the first layer clamped at zero. -/
def hidden (A : (⟨3, ![2, 10000, 10000]⟩ : Shape).Idx → EReal) (x : (⟨2, ![10000, 128]⟩ : Shape).Idx → EReal)
    (w0 : (⟨3, ![2, 128, 128]⟩ : Shape).Idx → EReal) : (⟨2, ![10000, 128]⟩ : Shape).Idx → EReal :=
  fun i => max (mix A x w0 (i 0) (i 1)) 0

/-- The result: the second layer over the hidden features. -/
def result (A : (⟨3, ![2, 10000, 10000]⟩ : Shape).Idx → EReal) (x : (⟨2, ![10000, 128]⟩ : Shape).Idx → EReal)
    (w0 : (⟨3, ![2, 128, 128]⟩ : Shape).Idx → EReal) (w1 : (⟨3, ![2, 128, 64]⟩ : Shape).Idx → EReal) :
    (⟨2, ![10000, 64]⟩ : Shape).Idx → EReal :=
  fun i => mix A (hidden A x w0) w1 (i 0) (i 1)

/-- A layer with no clamp, as an array: the output layer over any features. -/
def plain {J : ℕ} (A : (⟨3, ![2, 10000, 10000]⟩ : Shape).Idx → EReal) (x : (⟨2, ![10000, 128]⟩ : Shape).Idx → EReal)
    (w : (⟨3, ![2, 128, J]⟩ : Shape).Idx → EReal) : (⟨2, ![10000, J]⟩ : Shape).Idx → EReal :=
  fun i => mix A x w (i 0) (i 1)

theorem plain_apply {J : ℕ} (A : (⟨3, ![2, 10000, 10000]⟩ : Shape).Idx → EReal) (x : (⟨2, ![10000, 128]⟩ : Shape).Idx → EReal)
    (w : (⟨3, ![2, 128, J]⟩ : Shape).Idx → EReal) (r : Fin 10000) (j : Fin J) :
    plain A x w (ix2 r j) = mix A x w r j := rfl

/-- The result is the unclamped layer over the hidden features. -/
theorem result_eq_plain (A : (⟨3, ![2, 10000, 10000]⟩ : Shape).Idx → EReal) (x : (⟨2, ![10000, 128]⟩ : Shape).Idx → EReal)
    (w0 : (⟨3, ![2, 128, 128]⟩ : Shape).Idx → EReal) (w1 : (⟨3, ![2, 128, 64]⟩ : Shape).Idx → EReal) :
    result A x w0 w1 = plain A (hidden A x w0) w1 := rfl

theorem hidden_apply (A : (⟨3, ![2, 10000, 10000]⟩ : Shape).Idx → EReal) (x : (⟨2, ![10000, 128]⟩ : Shape).Idx → EReal)
    (w0 : (⟨3, ![2, 128, 128]⟩ : Shape).Idx → EReal) (r : Fin 10000) (j : Fin 128) :
    hidden A x w0 (ix2 r j) = max (mix A x w0 r j) 0 := rfl

theorem result_apply (A : (⟨3, ![2, 10000, 10000]⟩ : Shape).Idx → EReal) (x : (⟨2, ![10000, 128]⟩ : Shape).Idx → EReal)
    (w0 : (⟨3, ![2, 128, 128]⟩ : Shape).Idx → EReal) (w1 : (⟨3, ![2, 128, 64]⟩ : Shape).Idx → EReal) (r : Fin 10000) (j : Fin 64) :
    result A x w0 w1 (ix2 r j) = mix A (hidden A x w0) w1 r j := rfl

end Cert.PolySpec

end
-- ==== Proof.KI.Arr0.lean ====
import proofs.«158973_g30743375904967_cont_9to1_575_4_alg».proof.Proof.KI.Region0
import proofs.«158973_g30743375904967_cont_9to1_575_4_alg».proof.Proof.KI.Pay0
import proofs.«158973_g30743375904967_cont_9to1_575_4_alg».proof.Proof.Spec
import Idealize.ShloMosaic.Lib.Pipeline.Value
import Idealize.ShloMosaic.Lib.ValueIdx

set_option maxRecDepth 16384

noncomputable section

namespace Cert.KernelIdeal.Hand.L0

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # Layer 0's result array: the hidden features

Every point writes back one block of 200 rows; the blocks tile the array; and block `t` is rows `200 t … 200 t + 199`
of the clamped sum of the two adjacency powers applied to the projected features. -/

section
variable (V : (c : Dev nD) → (b : Ref sig .tc) → Buf (Elt Ideal) ((c : Thread nD τ).loc b))

/-- The arrays the layer reads, as the region finds them. -/
abbrev adj (c : Dev nD) : S2x10000x10000.Idx → Elt Ideal .f32 := V c main_arg1
abbrev feats (c : Dev nD) : S10000x128.Idx → Elt Ideal .f32 := V c main_arg0
abbrev wts (c : Dev nD) : S2x128x128.Idx → Elt Ideal .f32 := V c main_arg2

/-- The printed index maps over the grid: the adjacency window and the output window move along the rows with the
    point; the features and the weights are staged whole. -/
theorem idx_adj : ∀ t : Fin cfg0.N, win0_0.index t (0 : Fin 3) = 0 ∧ win0_0.index t (1 : Fin 3) = t.val ∧ win0_0.index t (2 : Fin 3) = 0 :=
  (by decide +kernel : ∀ t : Fin grid0.N, _)
theorem idx_out : ∀ t : Fin cfg0.N, win0_3.index t (0 : Fin 2) = t.val ∧ win0_3.index t (1 : Fin 2) = 0 :=
  (by decide +kernel : ∀ t : Fin grid0.N, _)
theorem idx_feats : win0_1.index t₀ (0 : Fin 2) = 0 ∧ win0_1.index t₀ (1 : Fin 2) = 0 := by decide +kernel
theorem idx_wts : win0_2.index t₀ (0 : Fin 3) = 0 ∧ win0_2.index t₀ (1 : Fin 3) = 0 ∧ win0_2.index t₀ (2 : Fin 3) = 0 := by decide +kernel

/-- The adjacency block of point `t` is rows `200 t + r` of both powers. -/
theorem iblk_adj (c : Dev nD) (t : Fin cfg0.N) (p : Fin 2) (r : Fin 200) (k : Fin 10000) (R : Fin 10000) (hR : R.val = 200 * t.val + r.val) :
    (iblk V c 0 t : S2x200x10000.Idx → Elt Ideal .f32) (ix3 p r k) = adj V c (ix3 p R k) := by
  obtain ⟨e0, e1, e2⟩ := idx_adj t
  unfold iblk
  rw [View.read_apply]
  show V c main_arg1 _ = V c main_arg1 _
  congr 1
  funext a
  apply Fin.ext
  match a with
  | ⟨0, _⟩ => show win0_0.index t 0 * 2 + 1 * p.val = p.val; rw [e0]; omega
  | ⟨1, _⟩ => show win0_0.index t 1 * 200 + 1 * r.val = R.val; rw [e1, hR]; omega
  | ⟨2, _⟩ => show win0_0.index t 2 * 10000 + 1 * k.val = k.val; rw [e2]; omega

/-- The staged feature matrix and weights are the arrays themselves. -/
theorem iblk_feats (c : Dev nD) (y : S10000x128.Idx) : (iblk V c 1 t₀ : S10000x128.Idx → Elt Ideal .f32) y = feats V c y := by
  obtain ⟨e0, e1⟩ := idx_feats
  unfold iblk
  rw [View.read_apply]
  show V c main_arg0 _ = V c main_arg0 _
  congr 1
  funext a
  apply Fin.ext
  match a with
  | ⟨0, _⟩ => show win0_1.index t₀ 0 * 10000 + 1 * (y 0).val = (y 0).val; rw [e0]; omega
  | ⟨1, _⟩ => show win0_1.index t₀ 1 * 128 + 1 * (y 1).val = (y 1).val; rw [e1]; omega
theorem iblk_wts (c : Dev nD) (y : S2x128x128.Idx) : (iblk V c 2 t₀ : S2x128x128.Idx → Elt Ideal .f32) y = wts V c y := by
  obtain ⟨e0, e1, e2⟩ := idx_wts
  unfold iblk
  rw [View.read_apply]
  show V c main_arg2 _ = V c main_arg2 _
  congr 1
  funext a
  apply Fin.ext
  match a with
  | ⟨0, _⟩ => show win0_2.index t₀ 0 * 2 + 1 * (y 0).val = (y 0).val; rw [e0]; omega
  | ⟨1, _⟩ => show win0_2.index t₀ 1 * 128 + 1 * (y 1).val = (y 1).val; rw [e1]; omega
  | ⟨2, _⟩ => show win0_2.index t₀ 2 * 128 + 1 * (y 2).val = (y 2).val; rw [e2]; omega

/-- The scratch holds the projected features. -/
theorem scr_apply (c : Dev nD) (p : Fin 2) (k : Fin 10000) (j : Fin 128) :
    scr V c (ix3 p k j) = Cert.PolySpec.feat (feats V c) (wts V c) p k j := by
  unfold scr
  rw [proj_apply]
  unfold Cert.PolySpec.feat
  refine Finset.sum_congr rfl fun d _ => ?_
  rw [iblk_feats, iblk_wts]

/-- An entry of point `t`'s output block sits at row `200 t + r` of the array. -/
theorem emb_out (t : Fin cfg0.N) (r : Fin 200) (j : Fin 128) (R : Fin 10000) (hR : R.val = 200 * t.val + r.val) :
    ((cfg0.win 3).blk t).view.emb (ix2 r j : S200x128.Idx) = (ix2 R j : S10000x128.Idx) := by
  obtain ⟨e0, e1⟩ := idx_out t
  funext a
  apply Fin.ext
  match a with
  | ⟨0, _⟩ => show win0_3.index t 0 * 200 + 1 * r.val = R.val; rw [e0, hR]; omega
  | ⟨1, _⟩ => show win0_3.index t 1 * 128 + 1 * j.val = j.val; rw [e1]; omega

/-- WHAT POINT `t` WRITES BACK is block `t` of the hidden features. -/
theorem flushed_eq (c : Dev nD) (t : Fin cfg0.N) :
    (dat V c).flushed 3 t = ((cfg0.win 3).blk t).view.read (Elt Ideal) (Cert.PolySpec.hidden (adj V c) (feats V c) (wts V c)) := by
  show (cfg0.win 3).cut (grid0.coords t) ((dat V c).after 3 t) = _
  rw [after_3]
  funext y
  obtain ⟨r, j, rfl⟩ : ∃ (r : Fin 200) (j : Fin 128), y = ix2 r j := ⟨y 0, y 1, eq_ix2 y⟩
  have hN : cfg0.N = 50 := N_0
  have hR : 200 * t.val + r.val < 10000 := by have := t.isLt; have := r.isLt; omega
  rw [View.read_apply]
  show outv (iblk V c 0 t) (scr V c) (ix2 r j) = Cert.PolySpec.hidden (adj V c) (feats V c) (wts V c) (((cfg0.win 3).blk t).view.emb (ix2 r j))
  rw [emb_out t r j ⟨_, hR⟩ rfl, Cert.PolySpec.hidden_apply, outv_apply]
  unfold Cert.PolySpec.mix
  congr 1
  congr 1 <;> refine Finset.sum_congr rfl fun k _ => ?_
  · rw [iblk_adj V c t 0 r k ⟨_, hR⟩ rfl, scr_apply]
  · rw [iblk_adj V c t 1 r k ⟨_, hR⟩ rfl, scr_apply]

/-- An index of the array is in point `t`'s block iff each coordinate is in the block's range on its axis. -/
theorem mem_blk (t : Fin cfg0.N) (i : S10000x128.Idx) :
    i ∈ ((cfg0.win 3).blk t).view.set ↔ ∀ a : Fin 2, win0_3.index t a * S200x128.size a ≤ (i a).val ∧ (i a).val < win0_3.index t a * S200x128.size a + S200x128.size a := by
  show i ∈ ((View.whole main_v0).slice (win0_3.rect t)).set ↔ _
  rw [View.set_slice_whole, Rect.mem_set_unit]
  exact Iff.rfl

/-- Row `i` of the array lies in the block of point `i / 200`. -/
theorem cover (i : S10000x128.Idx) : ∃ t : Fin cfg0.N, (cfg0.win 3).flush t = true ∧ i ∈ ((cfg0.win 3).blk t).view.set := by
  have hN : cfg0.N = 50 := N_0
  have hi0 : (i 0).val < 10000 := (i 0).isLt
  have hi1 : (i 1).val < 128 := (i 1).isLt
  obtain ⟨t, ht⟩ : ∃ t : Fin cfg0.N, t.val = (i 0).val / 200 := ⟨⟨(i 0).val / 200, by rw [hN]; omega⟩, rfl⟩
  obtain ⟨e0, e1⟩ := idx_out t
  refine ⟨t, flush0_3 t, (mem_blk t i).mpr fun a => ?_⟩
  match a with
  | ⟨0, _⟩ =>
    show win0_3.index t 0 * 200 ≤ (i 0).val ∧ (i 0).val < win0_3.index t 0 * 200 + 200
    rw [e0, ht]; omega
  | ⟨1, _⟩ =>
    show win0_3.index t 1 * 128 ≤ (i 1).val ∧ (i 1).val < win0_3.index t 1 * 128 + 128
    rw [e1]; omega

/-- The blocks tile the array, so it ends holding the hidden features. -/
theorem final (c : Dev nD) : (dat V c).arrAt 3 cfg0.N = Cert.PolySpec.hidden (adj V c) (feats V c) (wts V c) :=
  (dat V c).arrAt_eq_of_cover 3 _ (fun t _ => flushed_eq V c t) cover

end

end Cert.KernelIdeal.Hand.L0

end
-- ==== Proof.KI.Pay1.lean ====
/-
  Layer 1's two stored values read at an entry.

  The scratch the first grid point leaves holds, in slab `p`, the hidden features times the `p`-th weight matrix:
  entry `(p, k, j)` is `∑ d, x (k, d) * w (p, d, j)`. The output block of a grid point is the row-block of the
  first adjacency power times slab 0 plus the row-block of the second times slab 1 (the output layer does not
  clamp): entry `(r, j)` is `(∑ k, a (0, r, k) * s (0, k, j)) + ∑ k, a (1, r, k) * s (1, k, j)`.

  Over the extended reals the roundings to the narrower format are the identity and a matrix product into the
  zero accumulator is the plain sum of products, so each entry is read off by pushing the index through the
  stored value: the slab (a unit-stride rectangle at a literal offset) places entry `(0, k, j)` of what was
  stored at `(p, k, j)`; the casts between `[1, a, b]` and `[a, b]` drop or add the leading coordinate, the cast
  of the features to their own shape is the identity; the matrix product is read by the plain-product lemma.
-/
import proofs.«158973_g30743375904967_cont_9to1_575_4_alg».proof.Proof.KI.Body1
import proofs.«158973_g30743375904967_cont_9to1_575_4_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand.L1

open Cert.KernelIdeal Cert.KernelIdeal.Gen
open Idealize.ShloMosaic Idealize.ShloMosaic.ValueIdx

/-! ## The two matrix products at an entry -/

/-- Hidden features times one weight matrix, at entry `(k, j)`. -/
theorem mm_proj (l : FVec Ideal S10000x128 .f32) (r : FVec Ideal S128x64 .f32) (k : Fin 10000) (j : Fin 64) :
    matmul dot_S10000x128_S128x64_S10000x64_1_0_0_1_n_n none l r (constant (F := Ideal) S10000x64 .f32 0x00000000#32) (ix2 k j)
      = ∑ d : Fin 128, l (ix2 k d) * r (ix2 d j) :=
  Cert.Lib.PlainDot.matmul_zero_apply none l r k j

/-- An adjacency row-block times one slab, at entry `(r, j)`. -/
theorem mm_out (l : FVec Ideal S200x10000 .bf16) (r : FVec Ideal S10000x64 .bf16) (p : Fin 200) (j : Fin 64) :
    matmul dot_S200x10000_S10000x64_S200x64_1_0_0_1_n_n none l r (constant (F := Ideal) S200x64 .f32 0x00000000#32) (ix2 p j)
      = ∑ k : Fin 10000, l (ix2 p k) * r (ix2 k j) :=
  Cert.Lib.PlainDot.matmul_zero_apply none l r p j

/-! ## Where the rectangles sit -/

/-- A slab of a three-axis array at offset `(o, 0, 0)` places its entry `(0, k, j)` at `(o, k, j)`. -/
theorem idx_slab {n a b : Nat} (o : Fin n) (sz : Fin 3 → Nat) (hsz : sz = ![1, a, b])
    (inb : ∀ c, (![o.val, 0, 0] : Fin 3 → Nat) c + sz c ≤ (⟨3, ![n, a, b]⟩ : Shape).size c)
    (x : (Rect.unit (s := ⟨3, ![n, a, b]⟩) ![o.val, 0, 0] sz inb).shape.Idx) (k : Fin a) (j : Fin b)
    (hk : (x 1).val = k.val) (hj : (x 2).val = j.val) :
    (Rect.unit (s := ⟨3, ![n, a, b]⟩) ![o.val, 0, 0] sz inb).idx x = ix3 o k j := by
  subst hsz
  funext c
  apply Fin.ext
  have h0 : (x 0).val = 0 := by have := (x 0).isLt; simpa using this
  match c with
  | ⟨0, _⟩ => show o.val + 1 * (x 0).val = o.val; omega
  | ⟨1, _⟩ => show 0 + 1 * (x 1).val = k.val; omega
  | ⟨2, _⟩ => show 0 + 1 * (x 2).val = j.val; omega

/-- The whole of a two-axis array, as a rectangle at offset `(0, 0)`, places each entry at itself. -/
theorem idx_whole2 {a b : Nat} (sz : Fin 2 → Nat) (hsz : sz = ![a, b])
    (inb : ∀ c, (![0, 0] : Fin 2 → Nat) c + sz c ≤ (⟨2, ![a, b]⟩ : Shape).size c)
    (x : (Rect.unit (s := ⟨2, ![a, b]⟩) ![0, 0] sz inb).shape.Idx) (k : Fin a) (j : Fin b)
    (hk : (x 0).val = k.val) (hj : (x 1).val = j.val) :
    (Rect.unit (s := ⟨2, ![a, b]⟩) ![0, 0] sz inb).idx x = ix2 k j := by
  subst hsz
  funext c
  apply Fin.ext
  match c with
  | ⟨0, _⟩ => show 0 + 1 * (x 0).val = k.val; omega
  | ⟨1, _⟩ => show 0 + 1 * (x 1).val = j.val; omega

/-- Under the last write, at the place of the write's entry `x`, the contents are the write's value at `x`. -/
theorem canon_cons_idx {S : Shape} {e : EltTy} (r : Rect S) (v : r.shape.Idx → Elt Ideal e)
    (L : List (View.Piece (Elt Ideal) S e)) (x : r.shape.Idx) (y : S.Idx) (h : r.idx x = y) :
    View.canon (⟨r, v⟩ :: L) y = v x := by
  subst h; exact View.canon_cons_emb r v L x

/-- Off the last write's rectangle, the contents are what the earlier writes left. -/
theorem canon_cons_skip {S : Shape} {e : EltTy} (r : Rect S) (v : r.shape.Idx → Elt Ideal e)
    (L : List (View.Piece (Elt Ideal) S e)) (y : S.Idx) (h : y ∉ r.set) :
    View.canon (⟨r, v⟩ :: L) y = View.canon L y :=
  View.canon_cons_of_not_mem ⟨r, v⟩ L h

/-- Slab 0 does not reach slab 1's rectangle. -/
theorem slab0_not_mem_rS1 (k : Fin 10000) (j : Fin 64) : ix3 (0 : Fin 2) k j ∉ rS1.set := fun h => by
  have h0 := (Rect.mem_set_unit.1 h 0).1
  exact Nat.not_succ_le_zero 0 h0

/-! ## The stored values at an entry -/

/-- The hidden features cast to their own shape are themselves. -/
theorem pay1_eq (x : Vec Ideal S10000x128 .f32) : k1_pay1 (F := Ideal) x = x := by
  unfold k1_pay1
  exact shapeCast_self x shapeCasts_S10000x128_S10000x128

/-- Slab 0's stored value at entry `(0, k, j)`: row `k` of the features against column `j` of the weight matrix. -/
theorem pay2_apply (x : Vec Ideal S10000x128 .f32) (w1 : Vec Ideal S1x128x64 .f32) (k : Fin 10000) (j : Fin 64) :
    k1_pay2 (F := Ideal) x w1 (ix3 (0 : Fin 1) k j) = ∑ d : Fin 128, x (ix2 k d) * w1 (ix3 (0 : Fin 1) d j) := by
  unfold k1_pay2
  refine (shapeCast_ab_1ab_apply _ _ 0 k j).trans ?_
  refine (truncf_apply (ψ := .bf16) _ bitsLt_bf16_f32 (ix2 k j)).trans ?_
  refine (mm_proj _ _ k j).trans ?_
  refine Finset.sum_congr rfl fun d _ => ?_
  rw [shapeCast_1ab_ab_apply, pay1_eq]

/-- Slab 1's stored value at entry `(0, k, j)`: the same product with the second weight matrix. -/
theorem pay3_apply (x : Vec Ideal S10000x128 .f32) (w1 : Vec Ideal S1x128x64 .f32) (k : Fin 10000) (j : Fin 64) :
    k1_pay3 (F := Ideal) x w1 (ix3 (0 : Fin 1) k j) = ∑ d : Fin 128, x (ix2 k d) * w1 (ix3 (0 : Fin 1) d j) := by
  unfold k1_pay3
  refine (shapeCast_ab_1ab_apply _ _ 0 k j).trans ?_
  refine (truncf_apply (ψ := .bf16) _ bitsLt_bf16_f32 (ix2 k j)).trans ?_
  refine (mm_proj _ _ k j).trans ?_
  refine Finset.sum_congr rfl fun d _ => ?_
  rw [shapeCast_1ab_ab_apply, pay1_eq]

/-- One adjacency row-block against one slab, at entry `(r, j)`, through the casts that drop the leading axis. -/
theorem mm_out_cast (a0 : FVec Ideal S1x200x10000 .f32) (s0 : FVec Ideal S1x10000x64 .bf16) (r : Fin 200) (j : Fin 64) :
    matmul dot_S200x10000_S10000x64_S200x64_1_0_0_1_n_n none
        (truncf .bf16 (shapeCast S200x10000 a0 shapeCasts_S1x200x10000_S200x10000) bitsLt_bf16_f32)
        (shapeCast S10000x64 s0 shapeCasts_S1x10000x64_S10000x64)
        (constant (F := Ideal) S200x64 .f32 0x00000000#32) (ix2 r j)
      = ∑ k : Fin 10000, a0 (ix3 (0 : Fin 1) r k) * s0 (ix3 (0 : Fin 1) k j) := by
  refine (mm_out _ _ r j).trans ?_
  refine Finset.sum_congr rfl fun k _ => ?_
  refine (congrArg (· * _) (truncf_apply (ψ := .bf16) _ bitsLt_bf16_f32 (ix2 r k))).trans ?_
  rw [shapeCast_1ab_ab_apply, shapeCast_1ab_ab_apply]

/-- The output block's stored value at entry `(r, j)`: the two products added. -/
theorem pay4_apply (a0 a1 : Vec Ideal S1x200x10000 .f32) (s0 s1 : Vec Ideal S1x10000x64 .bf16) (r : Fin 200) (j : Fin 64) :
    k1_pay4 (F := Ideal) a0 s0 a1 s1 (ix2 r j)
      = (∑ k : Fin 10000, a0 (ix3 (0 : Fin 1) r k) * s0 (ix3 (0 : Fin 1) k j))
          + ∑ k : Fin 10000, a1 (ix3 (0 : Fin 1) r k) * s1 (ix3 (0 : Fin 1) k j) := by
  unfold k1_pay4
  refine (addf_apply _ _ _).trans ?_
  exact congrArg₂ (· + ·) (mm_out_cast a0 s0 r j) (mm_out_cast a1 s1 r j)

/-! ## The scratch and the output block at an entry -/

/-- The projected features at entry `(p, k, j)`. -/
theorem proj_apply (x : Vec Ideal S10000x128 .f32) (w : Vec Ideal S2x128x64 .f32) (p : Fin 2) (k : Fin 10000) (j : Fin 64) :
    proj (F := Ideal) x w (ix3 p k j) = ∑ d : Fin 128, x (ix2 k d) * w (ix3 p d j) := by
  have hx : ∀ d : Fin 128, View.ld x rX (ix2 k d) = x (ix2 k d) := fun d =>
    congrArg x (idx_whole2 S10000x128.size rfl inb_S10000x128_S10000x128_0_0 (ix2 k d) k d rfl rfl)
  unfold proj
  match p with
  | ⟨0, _⟩ =>
    refine (canon_cons_skip rS1 _ _ _ (slab0_not_mem_rS1 k j)).trans ?_
    refine (canon_cons_idx rS0 _ [] (ix3 (0 : Fin 1) k j) _
      (idx_slab (0 : Fin 2) S1x10000x64.size rfl inb_S2x10000x64_S1x10000x64_0_0_0 _ k j rfl rfl)).trans ?_
    refine (pay2_apply _ _ k j).trans ?_
    refine Finset.sum_congr rfl fun d _ => ?_
    exact congrArg₂ (· * ·) (hx d)
      (congrArg w (idx_slab (0 : Fin 2) S1x128x64.size rfl inb_S2x128x64_S1x128x64_0_0_0 (ix3 (0 : Fin 1) d j) d j rfl rfl))
  | ⟨1, _⟩ =>
    refine (canon_cons_idx rS1 _ _ (ix3 (0 : Fin 1) k j) _
      (idx_slab (1 : Fin 2) S1x10000x64.size rfl inb_S2x10000x64_S1x10000x64_1_0_0 _ k j rfl rfl)).trans ?_
    refine (pay3_apply _ _ k j).trans ?_
    refine Finset.sum_congr rfl fun d _ => ?_
    exact congrArg₂ (· * ·) (hx d)
      (congrArg w (idx_slab (1 : Fin 2) S1x128x64.size rfl inb_S2x128x64_S1x128x64_1_0_0 (ix3 (0 : Fin 1) d j) d j rfl rfl))

/-- The output block at entry `(r, j)`. -/
theorem outv_apply (a : Vec Ideal S2x200x10000 .f32) (s : Vec Ideal S2x10000x64 .bf16) (r : Fin 200) (j : Fin 64) :
    outv (F := Ideal) a s (ix2 r j)
      = (∑ k : Fin 10000, a (ix3 0 r k) * s (ix3 0 k j)) + ∑ k : Fin 10000, a (ix3 1 r k) * s (ix3 1 k j) := by
  unfold outv
  refine (canon_cons_idx rO _ [] (ix2 r j) _
    (idx_whole2 S200x64.size rfl inb_S200x64_S200x64_0_0 (ix2 r j) r j rfl rfl)).trans ?_
  refine (pay4_apply _ _ _ _ r j).trans ?_
  refine congrArg₂ (· + ·) ?_ ?_
  · refine Finset.sum_congr rfl fun k _ => ?_
    exact congrArg₂ (· * ·)
      (congrArg a (idx_slab (0 : Fin 2) S1x200x10000.size rfl inb_S2x200x10000_S1x200x10000_0_0_0 (ix3 (0 : Fin 1) r k) r k rfl rfl))
      (congrArg s (idx_slab (0 : Fin 2) S1x10000x64.size rfl inb_S2x10000x64_S1x10000x64_0_0_0 (ix3 (0 : Fin 1) k j) k j rfl rfl))
  · refine Finset.sum_congr rfl fun k _ => ?_
    exact congrArg₂ (· * ·)
      (congrArg a (idx_slab (1 : Fin 2) S1x200x10000.size rfl inb_S2x200x10000_S1x200x10000_1_0_0 (ix3 (0 : Fin 1) r k) r k rfl rfl))
      (congrArg s (idx_slab (1 : Fin 2) S1x10000x64.size rfl inb_S2x10000x64_S1x10000x64_1_0_0 (ix3 (0 : Fin 1) k j) k j rfl rfl))

end Cert.KernelIdeal.Hand.L1

end
-- ==== Proof.KI.Arr1.lean ====
import proofs.«158973_g30743375904967_cont_9to1_575_4_alg».proof.Proof.KI.Region1
import proofs.«158973_g30743375904967_cont_9to1_575_4_alg».proof.Proof.KI.Pay1
import proofs.«158973_g30743375904967_cont_9to1_575_4_alg».proof.Proof.Spec
import Idealize.ShloMosaic.Lib.Pipeline.Value
import Idealize.ShloMosaic.Lib.ValueIdx

set_option maxRecDepth 16384

noncomputable section

namespace Cert.KernelIdeal.Hand.L1

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! # Layer 1's result array: the output

Every point writes back one block of 200 rows; the blocks tile the array; and block `t` is rows `200 t … 200 t + 199`
of the sum of the two adjacency powers applied to the projected hidden features (the features this layer reads are
whatever `main_v0` holds when it is entered). -/

section
variable (V : (c : Dev nD) → (b : Ref sig .tc) → Buf (Elt Ideal) ((c : Thread nD τ).loc b))

/-- The arrays the layer reads, as the region finds them. -/
abbrev adj (c : Dev nD) : S2x10000x10000.Idx → Elt Ideal .f32 := V c main_arg1
abbrev feats (c : Dev nD) : S10000x128.Idx → Elt Ideal .f32 := V c main_v0
abbrev wts (c : Dev nD) : S2x128x64.Idx → Elt Ideal .f32 := V c main_arg3

/-- The printed index maps over the grid: the adjacency window and the output window move along the rows with the
    point; the features and the weights are staged whole. -/
theorem idx_adj : ∀ t : Fin cfg1.N, win1_0.index t (0 : Fin 3) = 0 ∧ win1_0.index t (1 : Fin 3) = t.val ∧ win1_0.index t (2 : Fin 3) = 0 :=
  (by decide +kernel : ∀ t : Fin grid1.N, _)
theorem idx_out : ∀ t : Fin cfg1.N, win1_3.index t (0 : Fin 2) = t.val ∧ win1_3.index t (1 : Fin 2) = 0 :=
  (by decide +kernel : ∀ t : Fin grid1.N, _)
theorem idx_feats : win1_1.index t₀ (0 : Fin 2) = 0 ∧ win1_1.index t₀ (1 : Fin 2) = 0 := by decide +kernel
theorem idx_wts : win1_2.index t₀ (0 : Fin 3) = 0 ∧ win1_2.index t₀ (1 : Fin 3) = 0 ∧ win1_2.index t₀ (2 : Fin 3) = 0 := by decide +kernel

/-- The adjacency block of point `t` is rows `200 t + r` of both powers. -/
theorem iblk_adj (c : Dev nD) (t : Fin cfg1.N) (p : Fin 2) (r : Fin 200) (k : Fin 10000) (R : Fin 10000) (hR : R.val = 200 * t.val + r.val) :
    (iblk V c 0 t : S2x200x10000.Idx → Elt Ideal .f32) (ix3 p r k) = adj V c (ix3 p R k) := by
  obtain ⟨e0, e1, e2⟩ := idx_adj t
  unfold iblk
  rw [View.read_apply]
  show V c main_arg1 _ = V c main_arg1 _
  congr 1
  funext a
  apply Fin.ext
  match a with
  | ⟨0, _⟩ => show win1_0.index t 0 * 2 + 1 * p.val = p.val; rw [e0]; omega
  | ⟨1, _⟩ => show win1_0.index t 1 * 200 + 1 * r.val = R.val; rw [e1, hR]; omega
  | ⟨2, _⟩ => show win1_0.index t 2 * 10000 + 1 * k.val = k.val; rw [e2]; omega

/-- The staged feature matrix and weights are the arrays themselves. -/
theorem iblk_feats (c : Dev nD) (y : S10000x128.Idx) : (iblk V c 1 t₀ : S10000x128.Idx → Elt Ideal .f32) y = feats V c y := by
  obtain ⟨e0, e1⟩ := idx_feats
  unfold iblk
  rw [View.read_apply]
  show V c main_v0 _ = V c main_v0 _
  congr 1
  funext a
  apply Fin.ext
  match a with
  | ⟨0, _⟩ => show win1_1.index t₀ 0 * 10000 + 1 * (y 0).val = (y 0).val; rw [e0]; omega
  | ⟨1, _⟩ => show win1_1.index t₀ 1 * 128 + 1 * (y 1).val = (y 1).val; rw [e1]; omega
theorem iblk_wts (c : Dev nD) (y : S2x128x64.Idx) : (iblk V c 2 t₀ : S2x128x64.Idx → Elt Ideal .f32) y = wts V c y := by
  obtain ⟨e0, e1, e2⟩ := idx_wts
  unfold iblk
  rw [View.read_apply]
  show V c main_arg3 _ = V c main_arg3 _
  congr 1
  funext a
  apply Fin.ext
  match a with
  | ⟨0, _⟩ => show win1_2.index t₀ 0 * 2 + 1 * (y 0).val = (y 0).val; rw [e0]; omega
  | ⟨1, _⟩ => show win1_2.index t₀ 1 * 128 + 1 * (y 1).val = (y 1).val; rw [e1]; omega
  | ⟨2, _⟩ => show win1_2.index t₀ 2 * 64 + 1 * (y 2).val = (y 2).val; rw [e2]; omega

/-- The scratch holds the projected (hidden) features. -/
theorem scr_apply (c : Dev nD) (p : Fin 2) (k : Fin 10000) (j : Fin 64) :
    scr V c (ix3 p k j) = Cert.PolySpec.feat (feats V c) (wts V c) p k j := by
  unfold scr
  rw [proj_apply]
  unfold Cert.PolySpec.feat
  refine Finset.sum_congr rfl fun d _ => ?_
  rw [iblk_feats, iblk_wts]

/-- An entry of point `t`'s output block sits at row `200 t + r` of the array. -/
theorem emb_out (t : Fin cfg1.N) (r : Fin 200) (j : Fin 64) (R : Fin 10000) (hR : R.val = 200 * t.val + r.val) :
    ((cfg1.win 3).blk t).view.emb (ix2 r j : S200x64.Idx) = (ix2 R j : S10000x64.Idx) := by
  obtain ⟨e0, e1⟩ := idx_out t
  funext a
  apply Fin.ext
  match a with
  | ⟨0, _⟩ => show win1_3.index t 0 * 200 + 1 * r.val = R.val; rw [e0, hR]; omega
  | ⟨1, _⟩ => show win1_3.index t 1 * 64 + 1 * j.val = j.val; rw [e1]; omega

/-- WHAT POINT `t` WRITES BACK is block `t` of the layer over the features it was entered with. -/
theorem flushed_eq (c : Dev nD) (t : Fin cfg1.N) :
    (dat V c).flushed 3 t = ((cfg1.win 3).blk t).view.read (Elt Ideal) (Cert.PolySpec.plain (adj V c) (feats V c) (wts V c)) := by
  show (cfg1.win 3).cut (grid1.coords t) ((dat V c).after 3 t) = _
  rw [after_3]
  funext y
  obtain ⟨r, j, rfl⟩ : ∃ (r : Fin 200) (j : Fin 64), y = ix2 r j := ⟨y 0, y 1, eq_ix2 y⟩
  have hN : cfg1.N = 50 := N_1
  have hR : 200 * t.val + r.val < 10000 := by have := t.isLt; have := r.isLt; omega
  rw [View.read_apply]
  show outv (iblk V c 0 t) (scr V c) (ix2 r j) = Cert.PolySpec.plain (adj V c) (feats V c) (wts V c) (((cfg1.win 3).blk t).view.emb (ix2 r j))
  rw [emb_out t r j ⟨_, hR⟩ rfl, Cert.PolySpec.plain_apply, outv_apply]
  unfold Cert.PolySpec.mix
  congr 1 <;> refine Finset.sum_congr rfl fun k _ => ?_
  · rw [iblk_adj V c t 0 r k ⟨_, hR⟩ rfl, scr_apply]
  · rw [iblk_adj V c t 1 r k ⟨_, hR⟩ rfl, scr_apply]

/-- An index of the array is in point `t`'s block iff each coordinate is in the block's range on its axis. -/
theorem mem_blk (t : Fin cfg1.N) (i : S10000x64.Idx) :
    i ∈ ((cfg1.win 3).blk t).view.set ↔ ∀ a : Fin 2, win1_3.index t a * S200x64.size a ≤ (i a).val ∧ (i a).val < win1_3.index t a * S200x64.size a + S200x64.size a := by
  show i ∈ ((View.whole main_v1).slice (win1_3.rect t)).set ↔ _
  rw [View.set_slice_whole, Rect.mem_set_unit]
  exact Iff.rfl

/-- Row `i` of the array lies in the block of point `i / 200`. -/
theorem cover (i : S10000x64.Idx) : ∃ t : Fin cfg1.N, (cfg1.win 3).flush t = true ∧ i ∈ ((cfg1.win 3).blk t).view.set := by
  have hN : cfg1.N = 50 := N_1
  have hi0 : (i 0).val < 10000 := (i 0).isLt
  have hi1 : (i 1).val < 64 := (i 1).isLt
  obtain ⟨t, ht⟩ : ∃ t : Fin cfg1.N, t.val = (i 0).val / 200 := ⟨⟨(i 0).val / 200, by rw [hN]; omega⟩, rfl⟩
  obtain ⟨e0, e1⟩ := idx_out t
  refine ⟨t, flush1_3 t, (mem_blk t i).mpr fun a => ?_⟩
  match a with
  | ⟨0, _⟩ =>
    show win1_3.index t 0 * 200 ≤ (i 0).val ∧ (i 0).val < win1_3.index t 0 * 200 + 200
    rw [e0, ht]; omega
  | ⟨1, _⟩ =>
    show win1_3.index t 1 * 64 ≤ (i 1).val ∧ (i 1).val < win1_3.index t 1 * 64 + 64
    rw [e1]; omega

/-- The blocks tile the array, so it ends holding the layer over the features it was entered with. -/
theorem final (c : Dev nD) : (dat V c).arrAt 3 cfg1.N = Cert.PolySpec.plain (adj V c) (feats V c) (wts V c) :=
  (dat V c).arrAt_eq_of_cover 3 _ (fun t _ => flushed_eq V c t) cover

end

end Cert.KernelIdeal.Hand.L1

end
-- ==== Proof.KI.Value.lean ====
import proofs.«158973_g30743375904967_cont_9to1_575_4_alg».proof.Proof.KI.Run
import proofs.«158973_g30743375904967_cont_9to1_575_4_alg».proof.Proof.KI.Arr0
import proofs.«158973_g30743375904967_cont_9to1_575_4_alg».proof.Proof.KI.Arr1
import proofs.«158973_g30743375904967_cont_9to1_575_4_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! # The result over the extended reals

The hidden layer leaves the clamped layer of the arguments in `main_v0`; the output layer, entered with that, leaves
the unclamped layer over it in `main_v1`: the two-layer convolution of the arguments, entry by entry. -/

variable (m : (ℓ : Loc nD τ sig) → Buf (Elt Ideal) ℓ)

theorem outArr_eq (c : Dev nD) :
    outArr (F := Ideal) m c = Cert.PolySpec.result (m ((c.tc : Thread nD τ).loc main_arg1)) (m ((c.tc : Thread nD τ).loc main_arg0))
      (m ((c.tc : Thread nD τ).loc main_arg2)) (m ((c.tc : Thread nD τ).loc main_arg3)) := by
  have hA : L1.adj (E1 m) c = m ((c.tc : Thread nD τ).loc main_arg1) := W1_of_ne m c main_arg1 (by decide)
  have hW : L1.wts (E1 m) c = m ((c.tc : Thread nD τ).loc main_arg3) := W1_of_ne m c main_arg3 (by decide)
  have hH : L1.feats (E1 m) c = Cert.PolySpec.hidden (m ((c.tc : Thread nD τ).loc main_arg1)) (m ((c.tc : Thread nD τ).loc main_arg0))
      (m ((c.tc : Thread nD τ).loc main_arg2)) := (W1_hid m c).trans (L0.final (E0 m) c)
  unfold outArr
  rw [L1.final (E1 m) c, Cert.PolySpec.result_eq_plain, hA, hW, hH]

end Cert.KernelIdeal.Hand

end
-- ==== Proof.RefIsSpec.lean ====
/-
  The reference program, read entry by entry, is the two-layer polynomial graph convolution of the specification.

  Each adjacency power and each weight matrix the program uses is a slice of a stacked input followed by a reshape
  that drops the unit axis, so its entry `(a, b)` is the stacked input's entry `(p, a, b)`. Each matrix product is,
  over the extended reals, the sum over the contraction position of the operands' products. The zero matrix a layer
  is added to is the extended real `0` at every entry, and the clamp is the maximum with that `0`. Reading the last
  stage outermost first, and the hidden stage inside its sums, gives the specification's sums term by term.
-/
import proofs.«158973_g30743375904967_cont_9to1_575_4_alg».proof.Proof.Gen.ReferenceIdeal.Read
import proofs.«158973_g30743375904967_cont_9to1_575_4_alg».proof.Proof.Spec
import Idealize.ShloMosaic.Lib.ValueIdx
import Idealize.ShloMosaic.PureOps.Ideal
import Idealize.ShloMosaic.PureOps.Ideal.Laws
import Mathlib.Algebra.BigOperators.Group.Finset.Basic

noncomputable section

namespace Cert.RefSpec

open Cert.ReferenceIdeal Cert.ReferenceIdeal.Read Cert.PolySpec Idealize.ShloMosaic Idealize.ShloMosaic.ValueIdx

/-- A function of a rank-2 index, read through the index's two coordinates. -/
theorem at2 {n0 n1 : Nat} (f : (⟨2, ![n0, n1]⟩ : Shape).Idx → EReal) (i : (⟨2, ![n0, n1]⟩ : Shape).Idx) :
    f i = f (ix2 (i 0) (i 1)) := congrArg f (eq_ix2 i)

/-! ## The slices of the stacked inputs -/

/-- The first layer's adjacency power `0`, at `(r, k)`, is the stack's entry `(0, r, k)`. -/
theorem adj0 (x1 : (⟨S2x10000x10000, .f32⟩ : BufTy).Contents (Elt Ideal)) (i : S10000x10000.Idx) :
    val_main_v2 (F := Ideal) x1 i = x1 (ix3 0 (i 0) (i 1)) := by
  rw [val_main_v2_apply, val_main_v1_apply]
  refine congrArg x1 (funext fun a => Fin.ext ?_)
  have h0 : (i 0).val < 10000 := (i 0).isLt
  have h1 : (i 1).val < 10000 := (i 1).isLt
  match a with
  | ⟨0, _⟩ => rfl
  | ⟨1, _⟩ => show ((i 0).val * 10000 + (i 1).val) / 10000 % 10000 = (i 0).val; omega
  | ⟨2, _⟩ => show ((i 0).val * 10000 + (i 1).val) % 10000 = (i 1).val; omega

/-- The first layer's adjacency power `1`, at `(r, k)`, is the stack's entry `(1, r, k)`. -/
theorem adj1 (x1 : (⟨S2x10000x10000, .f32⟩ : BufTy).Contents (Elt Ideal)) (i : S10000x10000.Idx) :
    val_main_v9 (F := Ideal) x1 i = x1 (ix3 1 (i 0) (i 1)) := by
  rw [val_main_v9_apply, val_main_v8_apply]
  refine congrArg x1 (funext fun a => Fin.ext ?_)
  have h0 : (i 0).val < 10000 := (i 0).isLt
  have h1 : (i 1).val < 10000 := (i 1).isLt
  match a with
  | ⟨0, _⟩ => rfl
  | ⟨1, _⟩ => show ((i 0).val * 10000 + (i 1).val) / 10000 % 10000 = (i 0).val; omega
  | ⟨2, _⟩ => show ((i 0).val * 10000 + (i 1).val) % 10000 = (i 1).val; omega

/-- The second layer's adjacency power `0`, at `(r, k)`, is the stack's entry `(0, r, k)`. -/
theorem adj0' (x1 : (⟨S2x10000x10000, .f32⟩ : BufTy).Contents (Elt Ideal)) (i : S10000x10000.Idx) :
    val_main_v18 (F := Ideal) x1 i = x1 (ix3 0 (i 0) (i 1)) := by
  rw [val_main_v18_apply, val_main_v17_apply]
  refine congrArg x1 (funext fun a => Fin.ext ?_)
  have h0 : (i 0).val < 10000 := (i 0).isLt
  have h1 : (i 1).val < 10000 := (i 1).isLt
  match a with
  | ⟨0, _⟩ => rfl
  | ⟨1, _⟩ => show ((i 0).val * 10000 + (i 1).val) / 10000 % 10000 = (i 0).val; omega
  | ⟨2, _⟩ => show ((i 0).val * 10000 + (i 1).val) % 10000 = (i 1).val; omega

/-- The second layer's adjacency power `1`, at `(r, k)`, is the stack's entry `(1, r, k)`. -/
theorem adj1' (x1 : (⟨S2x10000x10000, .f32⟩ : BufTy).Contents (Elt Ideal)) (i : S10000x10000.Idx) :
    val_main_v25 (F := Ideal) x1 i = x1 (ix3 1 (i 0) (i 1)) := by
  rw [val_main_v25_apply, val_main_v24_apply]
  refine congrArg x1 (funext fun a => Fin.ext ?_)
  have h0 : (i 0).val < 10000 := (i 0).isLt
  have h1 : (i 1).val < 10000 := (i 1).isLt
  match a with
  | ⟨0, _⟩ => rfl
  | ⟨1, _⟩ => show ((i 0).val * 10000 + (i 1).val) / 10000 % 10000 = (i 0).val; omega
  | ⟨2, _⟩ => show ((i 0).val * 10000 + (i 1).val) % 10000 = (i 1).val; omega

/-- The first layer's weights of power `0`, at `(d, j)`, are the stack's entry `(0, d, j)`. -/
theorem w00 (x2 : (⟨S2x128x128, .f32⟩ : BufTy).Contents (Elt Ideal)) (i : S128x128.Idx) :
    val_main_v4 (F := Ideal) x2 i = x2 (ix3 0 (i 0) (i 1)) := by
  rw [val_main_v4_apply, val_main_v3_apply]
  refine congrArg x2 (funext fun a => Fin.ext ?_)
  have h0 : (i 0).val < 128 := (i 0).isLt
  have h1 : (i 1).val < 128 := (i 1).isLt
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The first layer's weights of power `1`, at `(d, j)`, are the stack's entry `(1, d, j)`. -/
theorem w01 (x2 : (⟨S2x128x128, .f32⟩ : BufTy).Contents (Elt Ideal)) (i : S128x128.Idx) :
    val_main_v11 (F := Ideal) x2 i = x2 (ix3 1 (i 0) (i 1)) := by
  rw [val_main_v11_apply, val_main_v10_apply]
  refine congrArg x2 (funext fun a => Fin.ext ?_)
  have h0 : (i 0).val < 128 := (i 0).isLt
  have h1 : (i 1).val < 128 := (i 1).isLt
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

/-- The second layer's weights of power `0`, at `(d, j)`, are the stack's entry `(0, d, j)`. -/
theorem w10 (x3 : (⟨S2x128x64, .f32⟩ : BufTy).Contents (Elt Ideal)) (i : S128x64.Idx) :
    val_main_v20 (F := Ideal) x3 i = x3 (ix3 0 (i 0) (i 1)) := by
  rw [val_main_v20_apply, val_main_v19_apply]
  refine congrArg x3 (funext fun a => Fin.ext ?_)
  have h0 : (i 0).val < 128 := (i 0).isLt
  have h1 : (i 1).val < 64 := (i 1).isLt
  match a with
  | ⟨0, _⟩ => rfl
  | ⟨1, _⟩ => show ((i 0).val * 64 + (i 1).val) / 64 % 128 = (i 0).val; omega
  | ⟨2, _⟩ => show ((i 0).val * 64 + (i 1).val) % 64 = (i 1).val; omega

/-- The second layer's weights of power `1`, at `(d, j)`, are the stack's entry `(1, d, j)`. -/
theorem w11 (x3 : (⟨S2x128x64, .f32⟩ : BufTy).Contents (Elt Ideal)) (i : S128x64.Idx) :
    val_main_v27 (F := Ideal) x3 i = x3 (ix3 1 (i 0) (i 1)) := by
  rw [val_main_v27_apply, val_main_v26_apply]
  refine congrArg x3 (funext fun a => Fin.ext ?_)
  have h0 : (i 0).val < 128 := (i 0).isLt
  have h1 : (i 1).val < 64 := (i 1).isLt
  match a with
  | ⟨0, _⟩ => rfl
  | ⟨1, _⟩ => show ((i 0).val * 64 + (i 1).val) / 64 % 128 = (i 0).val; omega
  | ⟨2, _⟩ => show ((i 0).val * 64 + (i 1).val) % 64 = (i 1).val; omega

/-! ## The first layer -/

/-- The input features projected by the first layer's weights of power `0`. -/
theorem feat0 (x0 : (⟨S10000x128, .f32⟩ : BufTy).Contents (Elt Ideal)) (x2 : (⟨S2x128x128, .f32⟩ : BufTy).Contents (Elt Ideal)) (i : S10000x128.Idx) :
    val_main_v5 (F := Ideal) x0 x2 i = feat x0 x2 0 (i 0) (i 1) := by
  rw [val_main_v5_apply]
  unfold feat
  refine Finset.sum_congr rfl fun d _ => ?_
  rw [w00, at2 x0 (lidx_main_v5 i d)]
  rfl

/-- The input features projected by the first layer's weights of power `1`. -/
theorem feat1 (x0 : (⟨S10000x128, .f32⟩ : BufTy).Contents (Elt Ideal)) (x2 : (⟨S2x128x128, .f32⟩ : BufTy).Contents (Elt Ideal)) (i : S10000x128.Idx) :
    val_main_v12 (F := Ideal) x0 x2 i = feat x0 x2 1 (i 0) (i 1) := by
  rw [val_main_v12_apply]
  unfold feat
  refine Finset.sum_congr rfl fun d _ => ?_
  rw [w01, at2 x0 (lidx_main_v12 i d)]
  rfl

/-- The program's hidden stage is the specification's hidden features. -/
theorem hidden_eq (x0 : (⟨S10000x128, .f32⟩ : BufTy).Contents (Elt Ideal)) (x1 : (⟨S2x10000x10000, .f32⟩ : BufTy).Contents (Elt Ideal)) (x2 : (⟨S2x128x128, .f32⟩ : BufTy).Contents (Elt Ideal)) :
    val_main_v15 (F := Ideal) x0 x1 x2 = PolySpec.hidden x1 x0 x2 := by
  funext i
  rw [val_main_v15_apply, val_main_v14_apply, val_main_v7_apply, val_main_v0_apply, val_main_cst_apply,
    val_main_call0_v0_apply, val_main_call0_cst_apply, val_main_v6_apply, val_main_v13_apply]
  simp only [Ideal.ofBits_def, Ideal.ofBits_zero_f32, Ideal.addf_def, Ideal.maximumf_def, zero_add]
  unfold PolySpec.hidden mix
  refine congrArg (max · 0) (congrArg₂ (· + ·) (Finset.sum_congr rfl fun k _ => ?_) (Finset.sum_congr rfl fun k _ => ?_))
  · rw [adj0, feat0]; rfl
  · rw [adj1, feat1]; rfl

/-! ## The second layer -/

/-- The hidden features projected by the second layer's weights of power `0`. -/
theorem featH0 (x0 : (⟨S10000x128, .f32⟩ : BufTy).Contents (Elt Ideal)) (x1 : (⟨S2x10000x10000, .f32⟩ : BufTy).Contents (Elt Ideal)) (x2 : (⟨S2x128x128, .f32⟩ : BufTy).Contents (Elt Ideal)) (x3 : (⟨S2x128x64, .f32⟩ : BufTy).Contents (Elt Ideal)) (i : S10000x64.Idx) :
    val_main_v21 (F := Ideal) x0 x1 x2 x3 i = feat (PolySpec.hidden x1 x0 x2) x3 0 (i 0) (i 1) := by
  rw [val_main_v21_apply, hidden_eq]
  unfold feat
  refine Finset.sum_congr rfl fun d _ => ?_
  rw [w10, at2 (PolySpec.hidden x1 x0 x2) (lidx_main_v21 i d)]
  rfl

/-- The hidden features projected by the second layer's weights of power `1`. -/
theorem featH1 (x0 : (⟨S10000x128, .f32⟩ : BufTy).Contents (Elt Ideal)) (x1 : (⟨S2x10000x10000, .f32⟩ : BufTy).Contents (Elt Ideal)) (x2 : (⟨S2x128x128, .f32⟩ : BufTy).Contents (Elt Ideal)) (x3 : (⟨S2x128x64, .f32⟩ : BufTy).Contents (Elt Ideal)) (i : S10000x64.Idx) :
    val_main_v28 (F := Ideal) x0 x1 x2 x3 i = feat (PolySpec.hidden x1 x0 x2) x3 1 (i 0) (i 1) := by
  rw [val_main_v28_apply, hidden_eq]
  unfold feat
  refine Finset.sum_congr rfl fun d _ => ?_
  rw [w11, at2 (PolySpec.hidden x1 x0 x2) (lidx_main_v28 i d)]
  rfl

/-- The reference program's result is the specification's result. -/
theorem ref_eq (x0 : (⟨S10000x128, .f32⟩ : BufTy).Contents (Elt Ideal)) (x1 : (⟨S2x10000x10000, .f32⟩ : BufTy).Contents (Elt Ideal))
    (x2 : (⟨S2x128x128, .f32⟩ : BufTy).Contents (Elt Ideal)) (x3 : (⟨S2x128x64, .f32⟩ : BufTy).Contents (Elt Ideal)) :
    val_main_v30 (F := Ideal) x0 x1 x2 x3 = result x1 x0 x2 x3 := by
  funext i
  rw [val_main_v30_apply, val_main_v23_apply, val_main_v16_apply, val_main_cst_0_apply, val_main_v22_apply,
    val_main_v29_apply]
  simp only [Ideal.ofBits_def, Ideal.ofBits_zero_f32, Ideal.addf_def, zero_add]
  unfold result mix
  refine congrArg₂ (· + ·) (Finset.sum_congr rfl fun k _ => ?_) (Finset.sum_congr rfl fun k _ => ?_)
  · rw [adj0', featH0]; rfl
  · rw [adj1', featH1]; rfl

end Cert.RefSpec

end
-- ==== Proof.lean ====
/-
  The two-layer polynomial graph convolution `out = ∑ᵢ Aᵢ · (relu(∑ⱼ Aⱼ · (x · W0ⱼ)) · W1ᵢ)` over two adjacency powers,
  computed by one pipelined kernel per layer, against the plain jnp reference, over the extended reals.

  Each layer's kernel projects the features with both weight matrices into a scratch at its first grid point and keeps
  them there; every grid point multiplies a block of 200 rows of each adjacency power by that power's projected
  features and adds the two products (the hidden layer clamps the sum at zero). A change of float format is the
  identity over the extended reals, a product into a zero accumulator is the plain sum of products, and `0 + a = a`:
  both programs compute, entry by entry, the same sums in the same grouping, so no finiteness of the inputs is used.

  The frames (both programs run to the end, fault nowhere and leave their arguments unchanged) carry the scratch
  through each layer's grid as an invariant: anything before the first point, the projected features after it.
-/
import proofs.«158973_g30743375904967_cont_9to1_575_4_alg».proof.Defs
import proofs.«158973_g30743375904967_cont_9to1_575_4_alg».proof.Proof.Gen.Kernel
import proofs.«158973_g30743375904967_cont_9to1_575_4_alg».proof.Proof.Gen.KernelIdeal
import proofs.«158973_g30743375904967_cont_9to1_575_4_alg».proof.Proof.Gen.ReferenceIdeal
import proofs.«158973_g30743375904967_cont_9to1_575_4_alg».proof.Proof.Gen.ReferenceIdeal.Run
import proofs.«158973_g30743375904967_cont_9to1_575_4_alg».proof.Proof.Gen.ReferenceIdeal.Read
import proofs.«158973_g30743375904967_cont_9to1_575_4_alg».proof.Proof.Gen.Pre_finite_inputs
import proofs.«158973_g30743375904967_cont_9to1_575_4_alg».proof.Proof.K.Run
import proofs.«158973_g30743375904967_cont_9to1_575_4_alg».proof.Proof.KI.Run
import proofs.«158973_g30743375904967_cont_9to1_575_4_alg».proof.Proof.KI.RunValue
import proofs.«158973_g30743375904967_cont_9to1_575_4_alg».proof.Proof.KI.Value
import proofs.«158973_g30743375904967_cont_9to1_575_4_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The kernel's result array and the reference's are one function of the arguments: the two-layer convolution. -/
theorem algebraic : Cert.algebraic_KernelIdeal_ReferenceIdeal := by
  intro m ρ m' ρ' _ hagree
  refine ⟨fun c => Cert.KernelIdeal.Hand.outArr m c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact ((Cert.ReferenceIdeal.Read.val_main_v30_eq _ _ _ _).trans (Cert.RefSpec.ref_eq _ _ _ _)).trans
    (Cert.KernelIdeal.Hand.outArr_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
